-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S8x1024x8192 : Shape := ⟨3, ![8, 1024, 8192]⟩
abbrev S8x4096x1024 : Shape := ⟨3, ![8, 4096, 1024]⟩
abbrev S8x8192 : Shape := ⟨2, ![8, 8192]⟩
abbrev S8x1024 : Shape := ⟨2, ![8, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S8x1024x8192 : S_.BroadcastsInDim S8x1024x8192 (![] : Fin 0 → Fin S8x1024x8192.rank)
  reducesTo_S8x1024x8192_S_d0_1_2 : S8x1024x8192.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x8192 : S_.BroadcastsInDim S8x8192 (![] : Fin 0 → Fin S8x8192.rank)
  reducesTo_S8x8192_S_d0_1 : S8x8192.ReducesTo [0, 1] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg4 : FVec F S8x1024 .f32) (main_v13 : IVec S_ 1) (main_v16 : IVec S8x8192 1) : IVec S_ 1 :=
  let main_c_5 : IVec S_ 1 := constantI S_ 1 1#1
  let main_v17 : IVec S_ 1 := (fun x v => Host.reduce IntOp.andi x v reducesTo_S8x8192_S_d0_1 h_S_) main_v16 main_c_5
  let main_v18 : IVec S_ 1 := andi main_v13 main_v17
  let main_v19 : FVec F S8x1024 .f32 := Host.absf main_arg4
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  main_v23

def fn {F : FTy → Type} [FloatOps F] (main_arg0 : FVec F S8x1024x1024 .f32) (main_arg1 : FVec F S8x1024x8192 .f32) (main_arg2 : FVec F S8x4096x1024 .f32) (main_arg3 : FVec F S8x8192 .f32) (main_arg4 : FVec F S8x1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S8x1024x8192 .f32 := Host.absf main_arg1
  let main_cst_0 : FVec F S_ .f32 := constant S_ .f32 0x7F800000#32
  let main_v5 : FVec F S8x1024x8192 .f32 := broadcastInDim S8x1024x8192 ![] bcast_S_S8x1024x8192 main_cst_0
  let main_v6 : IVec S8x1024x8192 1 := cmpf .olt main_v4 main_v5
  let main_c_1 : IVec S_ 1 := constantI S_ 1 1#1
  let main_v7 : IVec S_ 1 := (fun x v => Host.reduce IntOp.andi x v reducesTo_S8x1024x8192_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  let main_v14 : FVec F S8x8192 .f32 := Host.absf main_arg3
  let main_cst_4 : FVec F S_ .f32 := constant S_ .f32 0x7F800000#32
  let main_v15 : FVec F S8x8192 .f32 := broadcastInDim S8x8192 ![] bcast_S_S8x8192 main_cst_4
  let main_v16 : IVec S8x8192 1 := cmpf .olt main_v14 main_v15
  fn_part1 (F := F) main_arg4 main_v13 main_v16
-- ==== Kernel.lean ====
abbrev S8x1024x1024 : Shape := ⟨3, ![8, 1024, 1024]⟩
abbrev S8x1024x8192 : Shape := ⟨3, ![8, 1024, 8192]⟩
abbrev S8x4096x1024 : Shape := ⟨3, ![8, 4096, 1024]⟩
abbrev S8x8192 : Shape := ⟨2, ![8, 8192]⟩
abbrev S8x1024 : Shape := ⟨2, ![8, 1024]⟩
abbrev S8x1x8192 : Shape := ⟨3, ![8, 1, 8192]⟩
abbrev S8x1x1024 : Shape := ⟨3, ![8, 1, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024x512 : Shape := ⟨3, ![1, 1024, 512]⟩
abbrev S1024x512 : Shape := ⟨2, ![1024, 512]⟩
abbrev S1x1x512 : Shape := ⟨3, ![1, 1, 512]⟩
abbrev S1x512 : Shape := ⟨2, ![1, 512]⟩
abbrev S1x512x1024 : Shape := ⟨3, ![1, 512, 1024]⟩
abbrev S512x1024 : Shape := ⟨2, ![512, 1024]⟩
abbrev S1x1024 : Shape := ⟨2, ![1, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x1024, .f32⟩
  | .hbm, ⟨1, _⟩ => ⟨S8x1024x8192, .f32⟩
  | .hbm, ⟨2, _⟩ => ⟨S8x4096x1024, .f32⟩
  | .hbm, ⟨3, _⟩ => ⟨S8x8192, .f32⟩
  | .hbm, ⟨4, _⟩ => ⟨S8x1024, .f32⟩
  | .hbm, ⟨5, _⟩ => ⟨S8x1x8192, .f32⟩
  | .hbm, ⟨6, _⟩ => ⟨S8x1x1024, .f32⟩
  | .hbm, ⟨7, _⟩ => ⟨S8x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024x1024, .f32⟩
  | .local _ .vmem, ⟨15, _⟩ => ⟨S1x1024x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v52 : BitVec 1 := Scalar.cmpi .eq arg2 c0_i32
  let v53 : BitVec 32 := Scalar.extui v52
  let c0_i32_36 : BitVec 32 := 0#32
  let v54 : BitVec 1 := Scalar.cmpi .ne v53 c0_i32_36
  v54

def k0_cond2 (i : grid0.Coords) : BitVec 1 :=
  let arg2 : BitVec 32 := BitVec.ofNat 32 (i 2).val
  let c0_i32_37 : BitVec 32 := 0#32
  let v55 : BitVec 1 := Scalar.cmpi .ne arg2 c0_i32_37
  let v56 : BitVec 32 := Scalar.extui v55
  let c0_i32_38 : BitVec 32 := 0#32
  let v57 : BitVec 1 := Scalar.cmpi .ne v56 c0_i32_38
  v57

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S8x8192_S8x1x8192 : S8x8192.ShapeCasts S8x1x8192
  shapeCasts_S8x1024_S8x1x1024 : S8x1024.ShapeCasts S8x1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x1024_S1x1024x512_0_0_0 : ∀ a, (![0, 0, 0] : Fin 3 → Nat) a + S1x1024x512.size a ≤ S1x1024x1024.size a
  h_S1x1024x512 : 0 < S1x1024x512.numel
  shapeCasts_S1x1024x512_S1024x512 : S1x1024x512.ShapeCasts S1024x512
  inb_S1x1x1024_S1x1x512_0_0_0 : ∀ a, (![0, 0, 0] : Fin 3 → Nat) a + S1x1x512.size a ≤ S1x1x1024.size a
  h_S1x1x512 : 0 < S1x1x512.numel
  shapeCasts_S1x1x512_S1x512 : S1x1x512.ShapeCasts S1x512
  broadcasts_S1x512_S1024x512 : S1x512.Broadcasts S1024x512
  inb_S1x1024x1024_S1x512x1024_0_0_0 : ∀ a, (![0, 0, 0] : Fin 3 → Nat) a + S1x512x1024.size a ≤ S1x1024x1024.size a
  h_S1x512x1024 : 0 < S1x512x1024.numel
  shapeCasts_S1x512x1024_S512x1024 : S1x512x1024.ShapeCasts S512x1024
  inb_S1x1024x1024_S1x1024x512_0_0_512 : ∀ a, (![0, 0, 512] : Fin 3 → Nat) a + S1x1024x512.size a ≤ S1x1024x1024.size a
  inb_S1x1x1024_S1x1x512_0_0_512 : ∀ a, (![0, 0, 512] : Fin 3 → Nat) a + S1x1x512.size a ≤ S1x1x1024.size a
  inb_S1x1024x1024_S1x512x1024_0_512_0 : ∀ a, (![0, 512, 0] : Fin 3 → Nat) a + S1x512x1024.size a ≤ S1x1024x1024.size a
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  shapeCasts_S1024x1024_S1x1024x1024 : S1024x1024.ShapeCasts S1x1024x1024
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x1024x1024.size a
  hwx0_0 : ∀ i : grid0.Coords, EltTy.bits .f32 = 32 ∨ (Rect.block (s := S8x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x8192.size a
  hwx0_1 : ∀ i : grid0.Coords, EltTy.bits .f32 = 32 ∨ (Rect.block (s := S8x1024x8192) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x1024x8192.size a
  hwx0_2 : ∀ i : grid0.Coords, EltTy.bits .f32 = 32 ∨ (Rect.block (s := S8x1024x8192) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x8192.size a
  hwx0_3 : ∀ i : grid0.Coords, EltTy.bits .f32 = 32 ∨ (Rect.block (s := S8x1x8192) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x8192.size a
  hwx0_4 : ∀ i : grid0.Coords, EltTy.bits .f32 = 32 ∨ (Rect.block (s := S8x1x8192) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S8x4096x1024.size a
  hwx0_5 : ∀ i : grid0.Coords, EltTy.bits .f32 = 32 ∨ (Rect.block (s := S8x4096x1024) S1x1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S8x1x1024.size a
  hwx0_6 : ∀ i : grid0.Coords, EltTy.bits .f32 = 32 ∨ (Rect.block (s := S8x1x1024) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x1024.size a ≤ S8x1024x1024.size a
  hwx0_7 : ∀ i : grid0.Coords, EltTy.bits .f32 = 32 ∨ (Rect.block (s := S8x1024x1024) S1x1024x1024.size (cc0_transform_7 i) (hinb0_7 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S1x1024x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v1) S1x1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond1 i == 1#1) && !(k0_cond2 i == 1#1) | ⟨_ + 8, h⟩ => absurd h (Nat.not_lt.2 (Nat.le_add_left _ _))

class Facts : Prop extends Facts₀ where

variable [Facts]
-- ==== ReferenceIdeal.lean ====
abbrev S8x1024x1024 : Shape := ⟨3, ![8, 1024, 1024]⟩
abbrev S8x1024x8192 : Shape := ⟨3, ![8, 1024, 8192]⟩
abbrev S8x4096x1024 : Shape := ⟨3, ![8, 4096, 1024]⟩
abbrev S8x8192 : Shape := ⟨2, ![8, 8192]⟩
abbrev S8x1024 : Shape := ⟨2, ![8, 1024]⟩
abbrev S8x1x8192 : Shape := ⟨3, ![8, 1, 8192]⟩
abbrev S8x1024x4096 : Shape := ⟨3, ![8, 1024, 4096]⟩
abbrev S_ : Shape := ⟨0, ![]⟩
abbrev S8x1x1024 : Shape := ⟨3, ![8, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x1024x8192, .f32⟩
  | .hbm, ⟨2, _⟩ => ⟨S8x4096x1024, .f32⟩
  | .hbm, ⟨3, _⟩ => ⟨S8x8192, .f32⟩
  | .hbm, ⟨4, _⟩ => ⟨S8x1024, .f32⟩
  | .hbm, ⟨5, _⟩ => ⟨S8x1024x8192, .f32⟩
  | .hbm, ⟨6, _⟩ => ⟨S8x1x8192, .f32⟩
  | .hbm, ⟨7, _⟩ => ⟨S8x1024x8192, .f32⟩
  | .hbm, ⟨8, _⟩ => ⟨S8x1024x8192, .f32⟩
  | .hbm, ⟨9, _⟩ => ⟨S8x1024x4096, .f32⟩
  | .hbm, ⟨10, _⟩ => ⟨S8x1024x4096, .f32⟩
  | .hbm, ⟨11, _⟩ => ⟨S8x1024x4096, .f32⟩
  | .hbm, ⟨12, _⟩ => ⟨S8x1024x4096, .f32⟩
  | .hbm, ⟨13, _⟩ => ⟨S_, .f32⟩
  | .hbm, ⟨14, _⟩ => ⟨S8x1024x4096, .f32⟩
  | .hbm, ⟨15, _⟩ => ⟨S8x1024x4096, .f32⟩
  | .hbm, ⟨16, _⟩ => ⟨S_, .f32⟩
  | .hbm, ⟨17, _⟩ => ⟨S8x1024x4096, .f32⟩
  | .hbm, ⟨18, _⟩ => ⟨S8x1024x4096, .f32⟩
  | .hbm, ⟨19, _⟩ => ⟨S8x1024x4096, .f32⟩
  | .hbm, ⟨20, _⟩ => ⟨S8x1024x4096, .f32⟩
  | .hbm, ⟨21, _⟩ => ⟨S8x1024x1024, .f32⟩
  | .hbm, ⟨22, _⟩ => ⟨S8x1x1024, .f32⟩
  | .hbm, ⟨23, _⟩ => ⟨S8x1024x1024, .f32⟩
  | .hbm, ⟨24, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]

class Facts₀ : Prop where
  bcast_S8x8192_S8x1x8192_0_2 : S8x8192.BroadcastsInDim S8x1x8192 (![0, 2] : Fin 2 → Fin S8x1x8192.rank)
  bcast_S8x1x8192_S8x1024x8192_0_1_2 : S8x1x8192.BroadcastsInDim S8x1024x8192 (![0, 1, 2] : Fin 3 → Fin S8x1024x8192.rank)
  slices_S8x1024x8192_S8x1024x4096_0_0_0 : S8x1024x8192.Slices ![0, 0, 0] S8x1024x4096
  slices_S8x1024x8192_S8x1024x4096_0_0_4096 : S8x1024x8192.Slices ![0, 0, 4096] S8x1024x4096
  bcast_S_S8x1024x4096 : S_.BroadcastsInDim S8x1024x4096 (![] : Fin 0 → Fin S8x1024x4096.rank)
  bcast_S8x1024_S8x1x1024_0_2 : S8x1024.BroadcastsInDim S8x1x1024 (![0, 2] : Fin 2 → Fin S8x1x1024.rank)
  bcast_S8x1x1024_S8x1024x1024_0_1_2 : S8x1x1024.BroadcastsInDim S8x1024x1024 (![0, 1, 2] : Fin 3 → Fin S8x1024x1024.rank)
  dot_S8x1024x1024_S8x1024x8192_S8x1024x8192_2_1_1_2_0_0_wf : DotDims.WF S8x1024x1024 S8x1024x8192 S8x1024x8192 [2] [1] [1] [2] [0] [0]
  dot_S8x1024x4096_S8x4096x1024_S8x1024x1024_2_1_1_2_0_0_wf : DotDims.WF S8x1024x4096 S8x4096x1024 S8x1024x1024 [2] [1] [1] [2] [0] [0]

variable [Facts₀]

def dot_S8x1024x1024_S8x1024x8192_S8x1024x8192_2_1_1_2_0_0 : DotDims S8x1024x1024 S8x1024x8192 S8x1024x8192 where
  lhsContracting := [2]
  rhsContracting := [1]
  lhsNonContracting := [1]
  rhsNonContracting := [2]
  lhsBatch := [0]
  rhsBatch := [0]
  wf := dot_S8x1024x1024_S8x1024x8192_S8x1024x8192_2_1_1_2_0_0_wf
def dot_S8x1024x4096_S8x4096x1024_S8x1024x1024_2_1_1_2_0_0 : DotDims S8x1024x4096 S8x4096x1024 S8x1024x1024 where
  lhsContracting := [2]
  rhsContracting := [1]
  lhsNonContracting := [1]
  rhsNonContracting := [2]
  lhsBatch := [0]
  rhsBatch := [0]
  wf := dot_S8x1024x4096_S8x4096x1024_S8x1024x1024_2_1_1_2_0_0_wf

class Facts : Prop extends Facts₀ where

variable [Facts]
-- ==== Proof.K.Runs.lean ====
import proofs.«134815_g25151328485597_cont_8to1_849_10_alg».proof.Proof.Gen.Kernel.Launch
import proofs.«134815_g25151328485597_cont_8to1_849_10_alg».proof.Proof.Gen.Kernel.Skeleton
import proofs.«134815_g25151328485597_cont_8to1_849_10_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region

Two reshapes (the fused bias as [8, 1, 8192], the down bias as [8, 1, 1024]) and then the one kernel region. -/

/-- Core c's TensorCore buffers when the region is entered: the launch memory after the two reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the reshapes run over the unscoped buffers, then the region is entered. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- Neither reshape before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- Neither reshape before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- Neither reshape before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- Neither reshape before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is
    not fetched its block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is
    not fetched its block index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is
    not fetched its block index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is
    not fetched its block index has not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is
    not fetched its block index has not moved since the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is
    not fetched its block index has not moved since the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it is
    not fetched its block index has not moved since the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's two branches

The body stores into the output block under ti = 0 (the first of an expert's four points: the block is
initialised) and under ti ≠ 0 (the other three: the block is added to). Exactly one holds at each point. -/

/-- The first branch is taken at the points ≡ 0 (mod 4), -/
theorem hcond0_1 : ∀ t : Fin cfg0.N, k0_cond1 (grid0.coords t) = 1#1 ↔ t.val % 4 = 0 :=
  (by decide +kernel : ∀ t : Fin grid0.N, k0_cond1 (grid0.coords t) = 1#1 ↔ t.val % 4 = 0)
/-- the second at all the others. -/
theorem hcond0_2 : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)
/-- So the output window is idle nowhere. -/
theorem idle0_7 : ∀ t : Fin cfg0.N, cfg0.idle 7 (cfg0.grid.coords t) = false :=
  (by decide +kernel : ∀ t : Fin grid0.N, idle0 7 (grid0.coords t) = false)

/-! ## The staging memrefs the body is called with -/

/-- One staging buffer of the output window, through which its contents are stated. -/
abbrev VO0_7 : View sig .tc .vmem S1x1024x1024 .f32 := (Memref.whole cc0_stg7_0 : Memref sig .tc .vmem S1x1024x1024 .f32).view
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x1024 .f32 := win0_7.stage (cfg0.slots t 7)
abbrev hs0_7 (t : Fin cfg0.N) : (ms0_7 t).IsWhole := hstage0_7 ((cfg0.slots t 7).cast nbuf0_7)

/-! ## The shares of the arrays

The fused weights are read by two windows (the gate half and the up half), and so is the fused bias: each of the two
holds half of the array. Every other array is read, or written, by one window, which holds it whole. -/

/-- The share of its array each window holds. -/
def qsh : Fin 8 → PosShare TreeShare := fun
  | 0 => fullShare | 1 => fullShare.left | 2 => fullShare.right | 3 => fullShare.left | 4 => fullShare.right
  | 5 => fullShare | 6 => fullShare | 7 => fullShare
  | ⟨_ + 8, h⟩ => absurd h (Nat.not_lt.2 (Nat.le_add_left _ _))

end Cert.Kernel.Frm

end
-- ==== Proof.K.RunA.lean ====
import proofs.«134815_g25151328485597_cont_8to1_849_10_alg».proof.Proof.K.Runs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE BODY AT A FIRST POINT (ti = 0). On whole staging memrefs, the seven inputs' at their contents and the output's at
    anything, the body runs to the continuation holding the inputs' as they were and the output's buffer with the
    pieces its one store wrote; the pieces are the witness the run finds. -/
noncomputable def kernelRun0_A (c : Dev nD) (i : grid0.Coords) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S1x1024x1024 .f32) (harg10 : arg10.IsWhole)
    (hc1 : k0_cond1 i = 1#1) (hc2 : ¬ k0_cond2 i = 1#1)
    (x0 : Vec F S1x1024x1024 .f32) (x1 : Vec F S1x1024x1024 .f32) (x2 : Vec F S1x1024x1024 .f32) (x3 : Vec F S1x1x1024 .f32) (x4 : Vec F S1x1x1024 .f32) (x5 : Vec F S1x1024x1024 .f32) (x6 : Vec F S1x1x1024 .f32) :
    { L7 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7)) -∗ K ⟨⟩))
          ⊢ wp frame (wpE (defs₀ (F := F)) Variants.none c none) E (cc0__ffn_kernel i arg3 harg3 arg4 harg4 arg5 harg5 arg6 harg6 arg7 harg7 arg8 harg8 arg9 harg9 arg10 harg10) K } := by
  refine ⟨?_, fun E K => ?run⟩
  case run =>
    simp only [cc0__ffn_kernel_eq_skeleton]; unfold cc0__ffn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact H7

end Cert.Kernel.Frm

end
-- ==== Proof.K.RunB.lean ====
import proofs.«134815_g25151328485597_cont_8to1_849_10_alg».proof.Proof.K.RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE BODY AT A LATER POINT (ti ≠ 0). On whole staging memrefs, the seven inputs' at their contents and the output's at
    its running contents, the body runs to the continuation holding the inputs' as they were and the output's buffer with
    the pieces its one store wrote; the pieces are the witness the run finds. -/
noncomputable def kernelRun0_B (c : Dev nD) (i : grid0.Coords) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S1x1024x1024 .f32) (harg10 : arg10.IsWhole)
    (hc1 : ¬ k0_cond1 i = 1#1) (hc2 : k0_cond2 i = 1#1)
    (x0 : Vec F S1x1024x1024 .f32) (x1 : Vec F S1x1024x1024 .f32) (x2 : Vec F S1x1024x1024 .f32) (x3 : Vec F S1x1x1024 .f32) (x4 : Vec F S1x1x1024 .f32) (x5 : Vec F S1x1024x1024 .f32) (x6 : Vec F S1x1x1024 .f32) (xo7 : Vec F S1x1024x1024 .f32) :
    { L7 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7)) -∗ K ⟨⟩))
          ⊢ wp frame (wpE (defs₀ (F := F)) Variants.none c none) E (cc0__ffn_kernel i arg3 harg3 arg4 harg4 arg5 harg5 arg6 harg6 arg7 harg7 arg8 harg8 arg9 harg9 arg10 harg10) K } := by
  refine ⟨?_, fun E K => ?run⟩
  case run =>
    simp only [cc0__ffn_kernel_eq_skeleton]; unfold cc0__ffn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact H7

end Cert.Kernel.Frm

end
-- ==== Proof.K.Frame.lean ====
import proofs.«134815_g25151328485597_cont_8to1_849_10_alg».proof.Proof.K.RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one store leaves in the output's staging buffer -/

/-- At a first point the one store covers the whole block. -/
theorem cover0_A_7 (c : Dev nD) (i : grid0.Coords) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S1x1024x1024 .f32) (harg10 : arg10.IsWhole)
    (hc1 : k0_cond1 i = 1#1) (hc2 : ¬ k0_cond2 i = 1#1) (x0 : Vec F S1x1024x1024 .f32) (x1 : Vec F S1x1024x1024 .f32) (x2 : Vec F S1x1024x1024 .f32) (x3 : Vec F S1x1x1024 .f32) (x4 : Vec F S1x1x1024 .f32) (x5 : Vec F S1x1024x1024 .f32) (x6 : Vec F S1x1x1024 .f32) (y : S1x1024x1024.Idx) :
    ∃ pc ∈ (kernelRun0_A c i arg3 harg3 arg4 harg4 arg5 harg5 arg6 harg6 arg7 harg7 arg8 harg8 arg9 harg9 arg10 harg10 hc1 hc2 x0 x1 x2 x3 x4 x5 x6).1, y ∈ pc.1.set :=
  View.cover_of_tiledL (kernelRun0_A c i arg3 harg3 arg4 harg4 arg5 harg5 arg6 harg6 arg7 harg7 arg8 harg8 arg9 harg9 arg10 harg10 hc1 hc2 x0 x1 x2 x3 x4 x5 x6).1 S1x1024x1024.size (by sl_kernel_rfl) y

/-- What a first point leaves in the output's staging buffer: its pieces read back. -/
def out0_A_7 (c : Dev nD) (i : grid0.Coords) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S1x1024x1024 .f32) (harg10 : arg10.IsWhole)
    (hc1 : k0_cond1 i = 1#1) (hc2 : ¬ k0_cond2 i = 1#1) (x0 : Vec F S1x1024x1024 .f32) (x1 : Vec F S1x1024x1024 .f32) (x2 : Vec F S1x1024x1024 .f32) (x3 : Vec F S1x1x1024 .f32) (x4 : Vec F S1x1x1024 .f32) (x5 : Vec F S1x1024x1024 .f32) (x6 : Vec F S1x1x1024 .f32) : Vec F S1x1024x1024 .f32 :=
  VO0_7.read (Elt F) (VO0_7.writes (Elt F) VO0_7.junk (kernelRun0_A c i arg3 harg3 arg4 harg4 arg5 harg5 arg6 harg6 arg7 harg7 arg8 harg8 arg9 harg9 arg10 harg10 hc1 hc2 x0 x1 x2 x3 x4 x5 x6).1)

/-- At a later point too. -/
theorem cover0_B_7 (c : Dev nD) (i : grid0.Coords) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S1x1024x1024 .f32) (harg10 : arg10.IsWhole)
    (hc1 : ¬ k0_cond1 i = 1#1) (hc2 : k0_cond2 i = 1#1) (x0 : Vec F S1x1024x1024 .f32) (x1 : Vec F S1x1024x1024 .f32) (x2 : Vec F S1x1024x1024 .f32) (x3 : Vec F S1x1x1024 .f32) (x4 : Vec F S1x1x1024 .f32) (x5 : Vec F S1x1024x1024 .f32) (x6 : Vec F S1x1x1024 .f32) (xo7 : Vec F S1x1024x1024 .f32) (y : S1x1024x1024.Idx) :
    ∃ pc ∈ (kernelRun0_B c i arg3 harg3 arg4 harg4 arg5 harg5 arg6 harg6 arg7 harg7 arg8 harg8 arg9 harg9 arg10 harg10 hc1 hc2 x0 x1 x2 x3 x4 x5 x6 xo7).1, y ∈ pc.1.set :=
  View.cover_of_tiledL (kernelRun0_B c i arg3 harg3 arg4 harg4 arg5 harg5 arg6 harg6 arg7 harg7 arg8 harg8 arg9 harg9 arg10 harg10 hc1 hc2 x0 x1 x2 x3 x4 x5 x6 xo7).1 S1x1024x1024.size (by sl_kernel_rfl) y

/-- What a later point leaves there, over what the point before left. -/
def out0_B_7 (c : Dev nD) (i : grid0.Coords) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S1x1024x1024 .f32) (harg10 : arg10.IsWhole)
    (hc1 : ¬ k0_cond1 i = 1#1) (hc2 : k0_cond2 i = 1#1) (x0 : Vec F S1x1024x1024 .f32) (x1 : Vec F S1x1024x1024 .f32) (x2 : Vec F S1x1024x1024 .f32) (x3 : Vec F S1x1x1024 .f32) (x4 : Vec F S1x1x1024 .f32) (x5 : Vec F S1x1024x1024 .f32) (x6 : Vec F S1x1x1024 .f32) (xo7 : Vec F S1x1024x1024 .f32) : Vec F S1x1024x1024 .f32 :=
  VO0_7.read (Elt F) (VO0_7.writes (Elt F) VO0_7.junk (kernelRun0_B c i arg3 harg3 arg4 harg4 arg5 harg5 arg6 harg6 arg7 harg7 arg8 harg8 arg9 harg9 arg10 harg10 hc1 hc2 x0 x1 x2 x3 x4 x5 x6 xo7).1)

/-! ## The accumulation, point by point -/

/-- What the output's staging buffer holds after the body at position n: at the first of an expert's four points what
    that point stores; at each of the other three what it stores over what the point before left (the buffer is not
    written back in between). -/
def outsAt0 (c : Dev nD) : (n : ℕ) → n < cfg0.N → Vec F S1x1024x1024 .f32
  | 0, hn => out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_1 ⟨0, hn⟩).mpr (Nat.zero_mod _)) (fun h => (hcond0_2 ⟨0, hn⟩).mp h (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 4 = 0 then
      out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_1 ⟨n + 1, hn⟩).mpr h0) (fun h => (hcond0_2 ⟨n + 1, hn⟩).mp h h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else
      out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_1 ⟨n + 1, hn⟩).mp h)) ((hcond0_2 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))

/-- At a first point. -/
theorem outsAt0_A (c : Dev nD) (t : Fin cfg0.N) (h0 : t.val % 4 = 0) :
    outsAt0 m c t.val t.isLt = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_1 t).mpr h0) (fun h => (hcond0_2 t).mp h h0) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

/-- At a later point, over what the point before left. -/
theorem outsAt0_B (c : Dev nD) (t : Fin cfg0.N) (h0 : ¬t.val % 4 = 0) :
    outsAt0 m c t.val t.isLt = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_1 t).mp h)) ((hcond0_2 t).mpr h0) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core c: the arrays as the region finds them; after the body at point t each
    input's buffer at its block and the output's at the accumulation; the invariant the core's scoped buffers that no
    window stages (there are none); nothing owed; the fused weights and the fused bias held by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt)
  Φ _ := Pipeline.scopedRest (Ix := Unit) (Name := ℕ) (U := UR sig nD τ) (Lvl := ℕ) (Val := Elt F) spec0 c
  q := qsh
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The output window is idle at no grid point: one of the two branches stores into it. -/
theorem idle0_7' (i : grid0.Coords) : cfg0.idle 7 i = false := by
  show (!(k0_cond1 i == 1#1) && !(k0_cond2 i == 1#1)) = false
  unfold k0_cond1 k0_cond2
  have h : (i 2).val < 4 := (i 2).isLt
  generalize (i 2).val = n at h ⊢
  rcases n with _ | _ | _ | _ | n
  · decide
  · decide
  · decide
  · decide
  · omega

/-- At a later point the output's current staging buffer holds what the body left at the point before: the point is
    not the first, and the buffer was not written back in between. -/
theorem before0_7_B (c : Dev nD) (t : Fin cfg0.N) (h0 : ¬t.val % 4 = 0) (d) :
    (dats m 0 c).before 7 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 7 rfl t (by omega) (Bool.eq_false_iff.mpr fun h => by have := (flush0_7 _).mp h; dsimp only at this; omega)
    (idle0_7') (fun _ _ => rfl)]
  dsimp only [dats]

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
/-- The body at any point: the inputs' buffers hold their blocks; the point is the first of its expert's four or a
    later one; at a later one the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  have hN : t.val < 32 := lt_of_lt_of_eq t.isLt (show cfg0.N = 32 from N_0)
  by_cases h0 : t.val % 4 = 0
  · rw [outsAt0_A m c t h0]
    unfold out0_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ ((hcond0_1 t).mpr h0) (fun h => (hcond0_2 t).mp h h0) (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_A_7 c _ _ _ _ _ _ _ _ _ _ _ _ _ _ _ _ _ _ _ _ _ _ _ _ _ _)
  · rw [outsAt0_B m c t h0]
    simp only [before0_7_B m c t h0]
    unfold out0_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (fun h => h0 ((hcond0_1 t).mp h)) ((hcond0_2 t).mpr h0) (iblk m c 0 t) (iblk m c 1 t) (iblk m c 2 t) (iblk m c 3 t) (iblk m c 4 t) (iblk m c 5 t) (iblk m c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_B_7 c _ _ _ _ _ _ _ _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0, idle0_7 t]
  exact sound_body m c t

end Cert.Kernel.Frm

end
-- ==== Proof.K.Launch.lean ====
import proofs.«134815_g25151328485597_cont_8to1_849_10_alg».proof.Proof.K.Runs
import Idealize.ShloMosaic.Lib.Pipeline.Frame
import Idealize.ShloMosaic.Lib.Pipeline.Kit
import Idealize.ShloMosaic.Lib.Pipeline.Launch

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the eight windows' arrays, listed: six, each whole at the full share at contents `V`. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1)
          ∗ (((c : Thread nD τ).loc main_call0_v0) ↦{fullShare} V main_call0_v0) ∗ (((c : Thread nD τ).loc main_arg2) ↦{fullShare} V main_arg2)
          ∗ (((c : Thread nD τ).loc main_call0_v1) ↦{fullShare} V main_call0_v1) ∗ (((c : Thread nD τ).loc main_v0) ↦{fullShare} V main_v0)) := by
  unfold Pipeline.arrBufs
  exact bigSep_eq_bigSepL_of_eq [main_arg0, main_arg1, main_call0_v0, main_arg2, main_call0_v1, main_v0] (by decide) (by decide) _

/-- The array behind window `w`, held at the share `q` the proof data gives that window, at the contents the
    region finds it with: one conjunct of the proof data's arrays at entry. A whole array's element set is everything,
    and before any write-back the array holds its entry contents. -/
theorem arrays_at (c : Dev nD) (dat : Dat τ (Elt F) Unit ℕ (UR sig nD τ) ℕ cfg0 c)
    (hA : ∀ w, dat.A w = V m c (Pipeline.arrRef spec0 w)) (w : Fin 8) (q : PosShare TreeShare) (hs : dat.share w = q) :
    ((cfg0.win w).arr.view.loc (c.tc : Thread nD τ) ↦[(cfg0.win w).arr.view.set]{dat.share w} dat.arrAt w 0 : sProp 𝕄)
      = (((c.tc : Thread nD τ).loc (Pipeline.arrRef spec0 w)) ↦{q} V m c (Pipeline.arrRef spec0 w)) := by
  rw [(arr_whole0 w).set_eq_univ, hs, ← hA w]
  rfl

/-- The buffers behind the windows' arrays, each whole at the full share at the region-entry contents, make the
    proof data's arrays at entry: the full share of the fused weights (`main_arg1`, windows 1 and 2) is split into the halves its two windows hold,
    and so is that of the fused bias as reshaped (`main_call0_v0`, windows 3 and 4); every other array goes whole to its one window. -/
theorem hsplit (c : Dev nD) (dat : Dat τ (Elt F) Unit ℕ (UR sig nD τ) ℕ cfg0 c)
    (hA : ∀ w, dat.A w = V m c (Pipeline.arrRef spec0 w)) (hq : ∀ w, dat.q w = qsh w) :
    (Pipeline.arrBufs (Ix := Unit) (Name := ℕ) (U := UR sig nD τ) (Lvl := ℕ) spec0 c (V m c) : sProp 𝕄)
      ⊢ dat.arrays (dat.arrAt · 0) := by
  have hs0 : dat.share 0 = fullShare := (if_neg Bool.false_ne_true).trans (hq 0)
  have hs1 : dat.share 1 = fullShare.left := (if_neg Bool.false_ne_true).trans (hq 1)
  have hs2 : dat.share 2 = fullShare.right := (if_neg Bool.false_ne_true).trans (hq 2)
  have hs3 : dat.share 3 = fullShare.left := (if_neg Bool.false_ne_true).trans (hq 3)
  have hs4 : dat.share 4 = fullShare.right := (if_neg Bool.false_ne_true).trans (hq 4)
  have hs5 : dat.share 5 = fullShare := (if_neg Bool.false_ne_true).trans (hq 5)
  have hs6 : dat.share 6 = fullShare := (if_neg Bool.false_ne_true).trans (hq 6)
  have hs7 : dat.share 7 = fullShare := if_pos rfl
  unfold Dat.arrays
  rw [arrBufs0_eq, bigSep_W0,
    arrays_at m c dat hA 0 _ hs0, arrays_at m c dat hA 1 _ hs1, arrays_at m c dat hA 2 _ hs2, arrays_at m c dat hA 3 _ hs3,
    arrays_at m c dat hA 4 _ hs4, arrays_at m c dat hA 5 _ hs5, arrays_at m c dat hA 6 _ hs6, arrays_at m c dat hA 7 _ hs7]
  iintro ⟨H0, H1, Hv0, H2, Hv1, Ho⟩
  ihave H1s := (pointsTo_share (PosShare.mem_left_op_right fullShare)).1 $$ H1
  icases H1s with ⟨H1l, H1r⟩
  ihave Hv0s := (pointsTo_share (PosShare.mem_left_op_right fullShare)).1 $$ Hv0
  icases Hv0s with ⟨Hv0l, Hv0r⟩
  isplitl [H0]; · iexact H0
  isplitl [H1l]; · iexact H1l
  isplitl [H1r]; · iexact H1r
  isplitl [Hv0l]; · iexact Hv0l
  isplitl [Hv0r]; · iexact Hv0r
  isplitl [H2]; · iexact H2
  isplitl [Hv1]; · iexact Hv1
  iexact Ho

/-- The launch, for ANY exact proof data over the region-entry contents with the stated shares, nothing owed, the scoped rest as invariant, and its body obligation. -/
theorem run_main_of (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qsh w)
    (howed : ∀ c t, (dats 0 c).owed t = 0)
    (hΦ : ∀ c t, (dats 0 c).Φ t = Pipeline.scopedRest (Ix := Unit) (Name := ℕ) (U := UR sig nD τ) (Lvl := ℕ) (Val := Elt F) spec0 c)
    (hbody : ∀ c, Pipeline.BodyObligationLoose (dats 0 c) (defs₀ (F := F)) Variants.none () Set.univ) :
    θ_run defs (onTc (τ := τ) (main (F := F))) ⟨m, fun _ => 0, ρ⟩ (Pipeline.FramePost cfgs dats 0 (V m)) :=
  Pipeline.θ_run_region_noSem_shared cfgs dats () cellOf_inj (0 : Fin 1) winFacts₀0 emb₁ defs₀ Variants.none m ρ main
    (hbody := hbody) (hne := block_pos0) (harr := arr_whole0) (hstage := stage_whole0) (howed := howed)
    (u₀ := initOf (Pipeline.cells cfgs cellOf_inj) (Pipeline.launchToks cfgs cellOf_inj)) (hu₀ := BI.Entails.refl _)
    (V := V m) (hmain := hmain m Variants.none)
    (hsplit := fun c => hsplit m c (dats 0 c) (hA c) (hq c))
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [hΦ]; iintro ⟨-, H⟩; iexact H)
    (hout := fun c => by rw [hΦ]; iintro H; isplitr; · iempintro
                         iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame claim's post (every argument array ends as launched) from a run to FramePost: arguments 0, 1 and 2 are
    input windows' arrays, which no write-back touches; arguments 3 and 4 are staged by no window (the windows read
    their reshapes) and bypass the region. Neither reshape before the region writes an argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) ⟨m, fun _ => 0, ρ⟩ (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 5).trans (((dats 0 c).arrAt_in 5 rfl _).trans ((hA c 5).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

end Cert.Kernel.Frm

end
-- ==== Proof.K.Main.lean ====
import proofs.«134815_g25151328485597_cont_8to1_849_10_alg».proof.Proof.K.Frame
import proofs.«134815_g25151328485597_cont_8to1_849_10_alg».proof.Proof.K.Launch

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

/-- At the compiled mesh, for any values, from any memory with zero counters: every weakly fair execution of the
    program terminates, and every final state has every window's array at what the proof data computes (an input its
    entry contents, the output the accumulation written back) and every other unscoped buffer as the region found it. -/
theorem run_main : θ_run defs (onTc (τ := τ) (main (F := F))) ⟨m, fun _ => 0, ρ⟩ (Pipeline.FramePost cfgs (dats m) 0 (V m)) :=
  run_main_of m ρ (dats m) (A_eq m) (fun _ _ => rfl) (fun _ _ => rfl) (fun _ _ => rfl) (fun c => (body_obligation m c).loose)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Frm

end
-- ==== Proof.KI.Runs.lean ====
import proofs.«134815_g25151328485597_cont_8to1_849_10_alg».proof.Proof.Gen.KernelIdeal.Launch
import proofs.«134815_g25151328485597_cont_8to1_849_10_alg».proof.Proof.Gen.KernelIdeal.Skeleton
import proofs.«134815_g25151328485597_cont_8to1_849_10_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region

Two reshapes (the fused bias as [8, 1, 8192], the down bias as [8, 1, 1024]) and then the one kernel region. -/

/-- Core c's TensorCore buffers when the region is entered: the launch memory after the two reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the reshapes run over the unscoped buffers, then the region is entered. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- Neither reshape before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- Neither reshape before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- Neither reshape before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- Neither reshape before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is
    not fetched its block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is
    not fetched its block index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is
    not fetched its block index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is
    not fetched its block index has not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is
    not fetched its block index has not moved since the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is
    not fetched its block index has not moved since the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it is
    not fetched its block index has not moved since the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's two branches

The body stores into the output block under ti = 0 (the first of an expert's four points: the block is
initialised) and under ti ≠ 0 (the other three: the block is added to). Exactly one holds at each point. -/

/-- The first branch is taken at the points ≡ 0 (mod 4), -/
theorem hcond0_1 : ∀ t : Fin cfg0.N, k0_cond1 (grid0.coords t) = 1#1 ↔ t.val % 4 = 0 :=
  (by decide +kernel : ∀ t : Fin grid0.N, k0_cond1 (grid0.coords t) = 1#1 ↔ t.val % 4 = 0)
/-- the second at all the others. -/
theorem hcond0_2 : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)
/-- So the output window is idle nowhere. -/
theorem idle0_7 : ∀ t : Fin cfg0.N, cfg0.idle 7 (cfg0.grid.coords t) = false :=
  (by decide +kernel : ∀ t : Fin grid0.N, idle0 7 (grid0.coords t) = false)

/-! ## The staging memrefs the body is called with -/

/-- One staging buffer of the output window, through which its contents are stated. -/
abbrev VO0_7 : View sig .tc .vmem S1x1024x1024 .f32 := (Memref.whole cc0_stg7_0 : Memref sig .tc .vmem S1x1024x1024 .f32).view
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x1024 .f32 := win0_7.stage (cfg0.slots t 7)
abbrev hs0_7 (t : Fin cfg0.N) : (ms0_7 t).IsWhole := hstage0_7 ((cfg0.slots t 7).cast nbuf0_7)

/-! ## The shares of the arrays

The fused weights are read by two windows (the gate half and the up half), and so is the fused bias: each of the two
holds half of the array. Every other array is read, or written, by one window, which holds it whole. -/

/-- The share of its array each window holds. -/
def qsh : Fin 8 → PosShare TreeShare := fun
  | 0 => fullShare | 1 => fullShare.left | 2 => fullShare.right | 3 => fullShare.left | 4 => fullShare.right
  | 5 => fullShare | 6 => fullShare | 7 => fullShare
  | ⟨_ + 8, h⟩ => absurd h (Nat.not_lt.2 (Nat.le_add_left _ _))

end Cert.KernelIdeal.Frm

end
-- ==== Proof.KI.RunA.lean ====
import proofs.«134815_g25151328485597_cont_8to1_849_10_alg».proof.Proof.KI.Runs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE BODY AT A FIRST POINT (ti = 0). On whole staging memrefs, the seven inputs' at their contents and the output's at
    anything, the body runs to the continuation holding the inputs' as they were and the output's buffer with the
    pieces its one store wrote; the pieces are the witness the run finds. -/
noncomputable def kernelRun0_A (c : Dev nD) (i : grid0.Coords) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S1x1024x1024 .f32) (harg10 : arg10.IsWhole)
    (hc1 : k0_cond1 i = 1#1) (hc2 : ¬ k0_cond2 i = 1#1)
    (x0 : Vec F S1x1024x1024 .f32) (x1 : Vec F S1x1024x1024 .f32) (x2 : Vec F S1x1024x1024 .f32) (x3 : Vec F S1x1x1024 .f32) (x4 : Vec F S1x1x1024 .f32) (x5 : Vec F S1x1024x1024 .f32) (x6 : Vec F S1x1x1024 .f32) :
    { L7 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7)) -∗ K ⟨⟩))
          ⊢ wp frame (wpE (defs₀ (F := F)) Variants.none c none) E (cc0__ffn_kernel i arg3 harg3 arg4 harg4 arg5 harg5 arg6 harg6 arg7 harg7 arg8 harg8 arg9 harg9 arg10 harg10) K } := by
  refine ⟨?_, fun E K => ?run⟩
  case run =>
    simp only [cc0__ffn_kernel_eq_skeleton]; unfold cc0__ffn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact H7

end Cert.KernelIdeal.Frm

end
-- ==== Proof.KI.RunB.lean ====
import proofs.«134815_g25151328485597_cont_8to1_849_10_alg».proof.Proof.KI.RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE BODY AT A LATER POINT (ti ≠ 0). On whole staging memrefs, the seven inputs' at their contents and the output's at
    its running contents, the body runs to the continuation holding the inputs' as they were and the output's buffer with
    the pieces its one store wrote; the pieces are the witness the run finds. -/
noncomputable def kernelRun0_B (c : Dev nD) (i : grid0.Coords) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S1x1024x1024 .f32) (harg10 : arg10.IsWhole)
    (hc1 : ¬ k0_cond1 i = 1#1) (hc2 : k0_cond2 i = 1#1)
    (x0 : Vec F S1x1024x1024 .f32) (x1 : Vec F S1x1024x1024 .f32) (x2 : Vec F S1x1024x1024 .f32) (x3 : Vec F S1x1x1024 .f32) (x4 : Vec F S1x1x1024 .f32) (x5 : Vec F S1x1024x1024 .f32) (x6 : Vec F S1x1x1024 .f32) (xo7 : Vec F S1x1024x1024 .f32) :
    { L7 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7)) -∗ K ⟨⟩))
          ⊢ wp frame (wpE (defs₀ (F := F)) Variants.none c none) E (cc0__ffn_kernel i arg3 harg3 arg4 harg4 arg5 harg5 arg6 harg6 arg7 harg7 arg8 harg8 arg9 harg9 arg10 harg10) K } := by
  refine ⟨?_, fun E K => ?run⟩
  case run =>
    simp only [cc0__ffn_kernel_eq_skeleton]; unfold cc0__ffn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact H7

end Cert.KernelIdeal.Frm

end
-- ==== Proof.KI.Frame.lean ====
import proofs.«134815_g25151328485597_cont_8to1_849_10_alg».proof.Proof.KI.RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one store leaves in the output's staging buffer -/

/-- At a first point the one store covers the whole block. -/
theorem cover0_A_7 (c : Dev nD) (i : grid0.Coords) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S1x1024x1024 .f32) (harg10 : arg10.IsWhole)
    (hc1 : k0_cond1 i = 1#1) (hc2 : ¬ k0_cond2 i = 1#1) (x0 : Vec F S1x1024x1024 .f32) (x1 : Vec F S1x1024x1024 .f32) (x2 : Vec F S1x1024x1024 .f32) (x3 : Vec F S1x1x1024 .f32) (x4 : Vec F S1x1x1024 .f32) (x5 : Vec F S1x1024x1024 .f32) (x6 : Vec F S1x1x1024 .f32) (y : S1x1024x1024.Idx) :
    ∃ pc ∈ (kernelRun0_A c i arg3 harg3 arg4 harg4 arg5 harg5 arg6 harg6 arg7 harg7 arg8 harg8 arg9 harg9 arg10 harg10 hc1 hc2 x0 x1 x2 x3 x4 x5 x6).1, y ∈ pc.1.set :=
  View.cover_of_tiledL (kernelRun0_A c i arg3 harg3 arg4 harg4 arg5 harg5 arg6 harg6 arg7 harg7 arg8 harg8 arg9 harg9 arg10 harg10 hc1 hc2 x0 x1 x2 x3 x4 x5 x6).1 S1x1024x1024.size (by sl_kernel_rfl) y

/-- What a first point leaves in the output's staging buffer: its pieces read back. -/
def out0_A_7 (c : Dev nD) (i : grid0.Coords) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S1x1024x1024 .f32) (harg10 : arg10.IsWhole)
    (hc1 : k0_cond1 i = 1#1) (hc2 : ¬ k0_cond2 i = 1#1) (x0 : Vec F S1x1024x1024 .f32) (x1 : Vec F S1x1024x1024 .f32) (x2 : Vec F S1x1024x1024 .f32) (x3 : Vec F S1x1x1024 .f32) (x4 : Vec F S1x1x1024 .f32) (x5 : Vec F S1x1024x1024 .f32) (x6 : Vec F S1x1x1024 .f32) : Vec F S1x1024x1024 .f32 :=
  VO0_7.read (Elt F) (VO0_7.writes (Elt F) VO0_7.junk (kernelRun0_A c i arg3 harg3 arg4 harg4 arg5 harg5 arg6 harg6 arg7 harg7 arg8 harg8 arg9 harg9 arg10 harg10 hc1 hc2 x0 x1 x2 x3 x4 x5 x6).1)

/-- At a later point too. -/
theorem cover0_B_7 (c : Dev nD) (i : grid0.Coords) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S1x1024x1024 .f32) (harg10 : arg10.IsWhole)
    (hc1 : ¬ k0_cond1 i = 1#1) (hc2 : k0_cond2 i = 1#1) (x0 : Vec F S1x1024x1024 .f32) (x1 : Vec F S1x1024x1024 .f32) (x2 : Vec F S1x1024x1024 .f32) (x3 : Vec F S1x1x1024 .f32) (x4 : Vec F S1x1x1024 .f32) (x5 : Vec F S1x1024x1024 .f32) (x6 : Vec F S1x1x1024 .f32) (xo7 : Vec F S1x1024x1024 .f32) (y : S1x1024x1024.Idx) :
    ∃ pc ∈ (kernelRun0_B c i arg3 harg3 arg4 harg4 arg5 harg5 arg6 harg6 arg7 harg7 arg8 harg8 arg9 harg9 arg10 harg10 hc1 hc2 x0 x1 x2 x3 x4 x5 x6 xo7).1, y ∈ pc.1.set :=
  View.cover_of_tiledL (kernelRun0_B c i arg3 harg3 arg4 harg4 arg5 harg5 arg6 harg6 arg7 harg7 arg8 harg8 arg9 harg9 arg10 harg10 hc1 hc2 x0 x1 x2 x3 x4 x5 x6 xo7).1 S1x1024x1024.size (by sl_kernel_rfl) y

/-- What a later point leaves there, over what the point before left. -/
def out0_B_7 (c : Dev nD) (i : grid0.Coords) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S1x1024x1024 .f32) (harg10 : arg10.IsWhole)
    (hc1 : ¬ k0_cond1 i = 1#1) (hc2 : k0_cond2 i = 1#1) (x0 : Vec F S1x1024x1024 .f32) (x1 : Vec F S1x1024x1024 .f32) (x2 : Vec F S1x1024x1024 .f32) (x3 : Vec F S1x1x1024 .f32) (x4 : Vec F S1x1x1024 .f32) (x5 : Vec F S1x1024x1024 .f32) (x6 : Vec F S1x1x1024 .f32) (xo7 : Vec F S1x1024x1024 .f32) : Vec F S1x1024x1024 .f32 :=
  VO0_7.read (Elt F) (VO0_7.writes (Elt F) VO0_7.junk (kernelRun0_B c i arg3 harg3 arg4 harg4 arg5 harg5 arg6 harg6 arg7 harg7 arg8 harg8 arg9 harg9 arg10 harg10 hc1 hc2 x0 x1 x2 x3 x4 x5 x6 xo7).1)

/-! ## The accumulation, point by point -/

/-- What the output's staging buffer holds after the body at position n: at the first of an expert's four points what
    that point stores; at each of the other three what it stores over what the point before left (the buffer is not
    written back in between). -/
def outsAt0 (c : Dev nD) : (n : ℕ) → n < cfg0.N → Vec F S1x1024x1024 .f32
  | 0, hn => out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_1 ⟨0, hn⟩).mpr (Nat.zero_mod _)) (fun h => (hcond0_2 ⟨0, hn⟩).mp h (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 4 = 0 then
      out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_1 ⟨n + 1, hn⟩).mpr h0) (fun h => (hcond0_2 ⟨n + 1, hn⟩).mp h h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else
      out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_1 ⟨n + 1, hn⟩).mp h)) ((hcond0_2 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))

/-- At a first point. -/
theorem outsAt0_A (c : Dev nD) (t : Fin cfg0.N) (h0 : t.val % 4 = 0) :
    outsAt0 m c t.val t.isLt = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_1 t).mpr h0) (fun h => (hcond0_2 t).mp h h0) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

/-- At a later point, over what the point before left. -/
theorem outsAt0_B (c : Dev nD) (t : Fin cfg0.N) (h0 : ¬t.val % 4 = 0) :
    outsAt0 m c t.val t.isLt = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_1 t).mp h)) ((hcond0_2 t).mpr h0) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core c: the arrays as the region finds them; after the body at point t each
    input's buffer at its block and the output's at the accumulation; the invariant the core's scoped buffers that no
    window stages (there are none); nothing owed; the fused weights and the fused bias held by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt)
  Φ _ := Pipeline.scopedRest (Ix := Unit) (Name := ℕ) (U := UR sig nD τ) (Lvl := ℕ) (Val := Elt F) spec0 c
  q := qsh
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The output window is idle at no grid point: one of the two branches stores into it. -/
theorem idle0_7' (i : grid0.Coords) : cfg0.idle 7 i = false := by
  show (!(k0_cond1 i == 1#1) && !(k0_cond2 i == 1#1)) = false
  unfold k0_cond1 k0_cond2
  have h : (i 2).val < 4 := (i 2).isLt
  generalize (i 2).val = n at h ⊢
  rcases n with _ | _ | _ | _ | n
  · decide
  · decide
  · decide
  · decide
  · omega

/-- At a later point the output's current staging buffer holds what the body left at the point before: the point is
    not the first, and the buffer was not written back in between. -/
theorem before0_7_B (c : Dev nD) (t : Fin cfg0.N) (h0 : ¬t.val % 4 = 0) (d) :
    (dats m 0 c).before 7 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 7 rfl t (by omega) (Bool.eq_false_iff.mpr fun h => by have := (flush0_7 _).mp h; dsimp only at this; omega)
    (idle0_7') (fun _ _ => rfl)]
  dsimp only [dats]

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
/-- The body at any point: the inputs' buffers hold their blocks; the point is the first of its expert's four or a
    later one; at a later one the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  have hN : t.val < 32 := lt_of_lt_of_eq t.isLt (show cfg0.N = 32 from N_0)
  by_cases h0 : t.val % 4 = 0
  · rw [outsAt0_A m c t h0]
    unfold out0_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ ((hcond0_1 t).mpr h0) (fun h => (hcond0_2 t).mp h h0) (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_A_7 c _ _ _ _ _ _ _ _ _ _ _ _ _ _ _ _ _ _ _ _ _ _ _ _ _ _)
  · rw [outsAt0_B m c t h0]
    simp only [before0_7_B m c t h0]
    unfold out0_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (fun h => h0 ((hcond0_1 t).mp h)) ((hcond0_2 t).mpr h0) (iblk m c 0 t) (iblk m c 1 t) (iblk m c 2 t) (iblk m c 3 t) (iblk m c 4 t) (iblk m c 5 t) (iblk m c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_B_7 c _ _ _ _ _ _ _ _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0, idle0_7 t]
  exact sound_body m c t

end Cert.KernelIdeal.Frm

end
-- ==== Proof.KI.Pieces.lean ====
import proofs.«134815_g25151328485597_cont_8to1_849_10_alg».proof.Proof.KI.Frame
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The half-blocks the body loads

A point's tile of 1024 hidden columns is worked as two halves of 512: the body loads the left and the right half of
the gate and up weight blocks' columns and of the two bias blocks, and the upper and the lower half of the down
weight block's rows. -/

abbrev colsLo (X : Vec F S1x1024x1024 .f32) : Vec F S1x1024x512 .f32 :=
  View.ld X (Rect.unit (s := S1x1024x1024) ![0, 0, 0] S1x1024x512.size inb_S1x1024x1024_S1x1024x512_0_0_0)
abbrev colsHi (X : Vec F S1x1024x1024 .f32) : Vec F S1x1024x512 .f32 :=
  View.ld X (Rect.unit (s := S1x1024x1024) ![0, 0, 512] S1x1024x512.size inb_S1x1024x1024_S1x1024x512_0_0_512)
abbrev biasLo (X : Vec F S1x1x1024 .f32) : Vec F S1x1x512 .f32 :=
  View.ld X (Rect.unit (s := S1x1x1024) ![0, 0, 0] S1x1x512.size inb_S1x1x1024_S1x1x512_0_0_0)
abbrev biasHi (X : Vec F S1x1x1024 .f32) : Vec F S1x1x512 .f32 :=
  View.ld X (Rect.unit (s := S1x1x1024) ![0, 0, 512] S1x1x512.size inb_S1x1x1024_S1x1x512_0_0_512)
abbrev rowsLo (X : Vec F S1x1024x1024 .f32) : Vec F S1x512x1024 .f32 :=
  View.ld X (Rect.unit (s := S1x1024x1024) ![0, 0, 0] S1x512x1024.size inb_S1x1024x1024_S1x512x1024_0_0_0)
abbrev rowsHi (X : Vec F S1x1024x1024 .f32) : Vec F S1x512x1024 .f32 :=
  View.ld X (Rect.unit (s := S1x1024x1024) ![0, 512, 0] S1x512x1024.size inb_S1x1024x1024_S1x512x1024_0_512_0)

theorem hz3 : (![0, 0, 0] : Fin 3 → Nat) = fun _ => 0 := by
  funext a; match a with | ⟨0, _⟩ => rfl | ⟨1, _⟩ => rfl | ⟨2, _⟩ => rfl

/-- The tile's contribution to the output block: the sum of the two halves' products with the down weights, as the
    body computes it from the six blocks it reads at every point. -/
def contrib (x0 x1 x2 : Vec F S1x1024x1024 .f32) (x3 x4 : Vec F S1x1x1024 .f32) (x5 : Vec F S1x1024x1024 .f32) : FVec F S1024x1024 .f32 :=
  k0_pay1 (k0_pay4 x0) (k0_pay5 x0 (colsLo x1) (biasLo x3) (colsLo x2) (biasLo x4) (rowsLo x5)) (k0_pay6 x0 (colsHi x1)) (biasHi x3) (colsHi x2) (biasHi x4) (rowsHi x5)

/-- A first point stores the tile's contribution plus the down bias. -/
theorem out0_A_7_eq (c : Dev nD) (i : grid0.Coords) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S1x1024x1024 .f32) (harg10 : arg10.IsWhole)
    (hc1 : k0_cond1 i = 1#1) (hc2 : ¬ k0_cond2 i = 1#1) (x0 : Vec F S1x1024x1024 .f32) (x1 : Vec F S1x1024x1024 .f32) (x2 : Vec F S1x1024x1024 .f32) (x3 : Vec F S1x1x1024 .f32) (x4 : Vec F S1x1x1024 .f32) (x5 : Vec F S1x1024x1024 .f32) (x6 : Vec F S1x1x1024 .f32) :
    out0_A_7 (F := F) c i arg3 harg3 arg4 harg4 arg5 harg5 arg6 harg6 arg7 harg7 arg8 harg8 arg9 harg9 arg10 harg10 hc1 hc2 x0 x1 x2 x3 x4 x5 x6 = k0_pay2 (k0_pay4 x0) (k0_pay5 x0 (colsLo x1) (biasLo x3) (colsLo x2) (biasLo x4) (rowsLo x5)) (k0_pay6 x0 (colsHi x1)) (biasHi x3) (colsHi x2) (biasHi x4) (rowsHi x5) x6 := by
  unfold out0_A_7
  rw [View.read_writes_eq_canon _ _ _ (cover0_A_7 c i arg3 harg3 arg4 harg4 arg5 harg5 arg6 harg6 arg7 harg7 arg8 harg8 arg9 harg9 arg10 harg10 hc1 hc2 x0 x1 x2 x3 x4 x5 x6)]
  unfold kernelRun0_A
  dsimp only
  sl_unfold_words
  rw [View.canon_unit_zero hz3]
  simp only [View.readAt_eq_ld, harg3.read_unread, harg4.read_unread, harg5.read_unread, harg6.read_unread, harg7.read_unread, harg8.read_unread, harg9.read_unread, View.ld_unit_zero (S := S1x1024x1024) hz3, View.ld_unit_zero (S := S1x1x1024) hz3] <;> rfl

/-- A later point stores what the buffer held plus the tile's contribution. -/
theorem out0_B_7_eq (c : Dev nD) (i : grid0.Coords) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S1x1024x1024 .f32) (harg10 : arg10.IsWhole)
    (hc1 : ¬ k0_cond1 i = 1#1) (hc2 : k0_cond2 i = 1#1) (x0 : Vec F S1x1024x1024 .f32) (x1 : Vec F S1x1024x1024 .f32) (x2 : Vec F S1x1024x1024 .f32) (x3 : Vec F S1x1x1024 .f32) (x4 : Vec F S1x1x1024 .f32) (x5 : Vec F S1x1024x1024 .f32) (x6 : Vec F S1x1x1024 .f32) (xo7 : Vec F S1x1024x1024 .f32) :
    out0_B_7 (F := F) c i arg3 harg3 arg4 harg4 arg5 harg5 arg6 harg6 arg7 harg7 arg8 harg8 arg9 harg9 arg10 harg10 hc1 hc2 x0 x1 x2 x3 x4 x5 x6 xo7 = k0_pay3 (k0_pay4 x0) (k0_pay5 x0 (colsLo x1) (biasLo x3) (colsLo x2) (biasLo x4) (rowsLo x5)) (k0_pay6 x0 (colsHi x1)) (biasHi x3) (colsHi x2) (biasHi x4) (rowsHi x5) xo7 := by
  unfold out0_B_7
  rw [View.read_writes_eq_canon _ _ _ (cover0_B_7 c i arg3 harg3 arg4 harg4 arg5 harg5 arg6 harg6 arg7 harg7 arg8 harg8 arg9 harg9 arg10 harg10 hc1 hc2 x0 x1 x2 x3 x4 x5 x6 xo7)]
  unfold kernelRun0_B
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, View.ld_unit_zero (S := S1x1024x1024) hz3, View.ld_unit_zero (S := S1x1x1024) hz3] <;> rfl

end Cert.KernelIdeal.Frm

end
-- ==== Proof.KI.Payload.lean ====
/-
  The arithmetic of one grid point of the fused mixture-of-experts feed-forward layer, read at one index, at the ideal
  values (a float is an extended real, a change of float format is the identity, a block product into a zero accumulator
  is a plain sum over the contracted coordinate).

  One grid point handles a tile of 1024 hidden columns as two halves of 512. For a half with gate weights `gw`, up
  weights `uw` (each [1024, 512]), bias rows `gb`, `ub` ([1, 512], the same for every token row) and down weights `dw`
  ([512, 1024]), and the token block `x` ([1024 tokens, 1024 features]):
      g[r, i] = ∑ₖ x[r, k] · gw[k, i] + gb[i],      u[r, i] = ∑ₖ x[r, k] · uw[k, i] + ub[i],
      h[r, i] = (g[r, i] · logistic g[r, i]) · u[r, i]                       (`hloc`),
  and the half contributes ∑ᵢ h[r, i] · dw[i, c] to output entry (r, c). The tile's result is the sum of its two halves'
  contributions (`pay1_apply`); the first tile of an expert adds the output bias row to it (`pay2_apply`), a later tile
  adds it to what the output block already holds (`pay3_apply`). Every loaded block carries a leading unit axis, which
  the body drops by a shape cast before use and restores before the store.
-/
import proofs.«134815_g25151328485597_cont_8to1_849_10_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx

/-- One half-tile's gated hidden activation for token row r and hidden column i of the half. -/
def hloc (x : Vec Ideal S1x1024x1024 .f32) (gw uw : Vec Ideal S1x1024x512 .f32) (gb ub : Vec Ideal S1x1x512 .f32) (r : Fin 1024) (i : Fin 512) : EReal :=
  (((∑ k : Fin 1024, x (ix3 0 r k) * gw (ix3 0 k i)) + gb (ix3 0 0 i)) * Ideal.logistic ((∑ k : Fin 1024, x (ix3 0 r k) * gw (ix3 0 k i)) + gb (ix3 0 0 i)))
    * ((∑ k : Fin 1024, x (ix3 0 r k) * uw (ix3 0 k i)) + ub (ix3 0 0 i))

/-- `hloc` from the two pre-activations, whatever terms they are known to equal. -/
theorem hloc_of_eq (x : Vec Ideal S1x1024x1024 .f32) (gw uw : Vec Ideal S1x1024x512 .f32) (gb ub : Vec Ideal S1x1x512 .f32)
    (r : Fin 1024) (i : Fin 512) {g u : EReal}
    (hg : g = (∑ k : Fin 1024, x (ix3 0 r k) * gw (ix3 0 k i)) + gb (ix3 0 0 i))
    (hu : u = (∑ k : Fin 1024, x (ix3 0 r k) * uw (ix3 0 k i)) + ub (ix3 0 0 i)) :
    (g * Ideal.logistic g) * u = hloc x gw uw gb ub r i := by
  subst hg hu; rfl

/-! ## The two block products read at an index

The operand indices of a product with one contracted axis: on the kept axis the output's coordinate, on the contracted
axis the contraction position's one coordinate. Four facts per dimension-number record, at the literal axes. -/

theorem lhsA_0 (j : S1024x512.Idx) (k : dot_S1024x1024_S1024x512_S1024x512_1_0_0_1_n_n.contr.Idx) :
    (dot_S1024x1024_S1024x512_S1024x512_1_0_0_1_n_n.lhsIdx j k 0).val = (j 0).val := by
  simp [DotDims.lhsIdx, dot_S1024x1024_S1024x512_S1024x512_1_0_0_1_n_n]; rfl

theorem lhsA_1 (j : S1024x512.Idx) (k : dot_S1024x1024_S1024x512_S1024x512_1_0_0_1_n_n.contr.Idx) :
    (dot_S1024x1024_S1024x512_S1024x512_1_0_0_1_n_n.lhsIdx j k 1).val = (k ⟨0, by decide⟩).val :=
  dot_S1024x1024_S1024x512_S1024x512_1_0_0_1_n_n.lhsIdx_val_of_single rfl j k

theorem rhsA_0 (j : S1024x512.Idx) (k : dot_S1024x1024_S1024x512_S1024x512_1_0_0_1_n_n.contr.Idx) :
    (dot_S1024x1024_S1024x512_S1024x512_1_0_0_1_n_n.rhsIdx j k 0).val = (k ⟨0, by decide⟩).val :=
  dot_S1024x1024_S1024x512_S1024x512_1_0_0_1_n_n.rhsIdx_val_of_single rfl j k

theorem rhsA_1 (j : S1024x512.Idx) (k : dot_S1024x1024_S1024x512_S1024x512_1_0_0_1_n_n.contr.Idx) :
    (dot_S1024x1024_S1024x512_S1024x512_1_0_0_1_n_n.rhsIdx j k 1).val = (j 1).val := by
  simp [DotDims.rhsIdx, dot_S1024x1024_S1024x512_S1024x512_1_0_0_1_n_n]; rfl

/-- A [1024, 1024] by [1024, 512] block product into the zero accumulator, at (r, i): the sum over the 1024 contracted
    positions of the products of the entries. -/
theorem matmulA_apply (A : FVec Ideal S1024x1024 .bf16) (B : FVec Ideal S1024x512 .bf16) (r : Fin 1024) (i : Fin 512) :
    matmul dot_S1024x1024_S1024x512_S1024x512_1_0_0_1_n_n none A B (constant S1024x512 .f32 0x00000000#32) (ix2 r i)
      = ∑ k : Fin 1024, A (ix2 r k) * B (ix2 k i) := by
  show FloatOps.matmul _ none A B (constant S1024x512 .f32 0x00000000#32) (ix2 r i) = _
  rw [Ideal.matmul_constant_zero_apply,
    ← Equiv.sum_comp (contrEquiv1 dot_S1024x1024_S1024x512_S1024x512_1_0_0_1_n_n 1024 rfl rfl).symm]
  refine Finset.sum_congr rfl fun c _ => ?_
  have hc := contrEquiv1_symm_val dot_S1024x1024_S1024x512_S1024x512_1_0_0_1_n_n 1024 rfl rfl c
  have hl : dot_S1024x1024_S1024x512_S1024x512_1_0_0_1_n_n.lhsIdx (ix2 r i)
      ((contrEquiv1 dot_S1024x1024_S1024x512_S1024x512_1_0_0_1_n_n 1024 rfl rfl).symm c) = ix2 r c := by
    funext ax; apply Fin.ext
    match ax with
    | ⟨0, _⟩ => exact lhsA_0 _ _
    | ⟨1, _⟩ => exact (lhsA_1 _ _).trans hc
  have hr : dot_S1024x1024_S1024x512_S1024x512_1_0_0_1_n_n.rhsIdx (ix2 r i)
      ((contrEquiv1 dot_S1024x1024_S1024x512_S1024x512_1_0_0_1_n_n 1024 rfl rfl).symm c) = ix2 c i := by
    funext ax; apply Fin.ext
    match ax with
    | ⟨0, _⟩ => exact (rhsA_0 _ _).trans hc
    | ⟨1, _⟩ => exact rhsA_1 _ _
  rw [hl, hr]

theorem lhsB_0 (j : S1024x1024.Idx) (k : dot_S1024x512_S512x1024_S1024x1024_1_0_0_1_n_n.contr.Idx) :
    (dot_S1024x512_S512x1024_S1024x1024_1_0_0_1_n_n.lhsIdx j k 0).val = (j 0).val := by
  simp [DotDims.lhsIdx, dot_S1024x512_S512x1024_S1024x1024_1_0_0_1_n_n]; rfl

theorem lhsB_1 (j : S1024x1024.Idx) (k : dot_S1024x512_S512x1024_S1024x1024_1_0_0_1_n_n.contr.Idx) :
    (dot_S1024x512_S512x1024_S1024x1024_1_0_0_1_n_n.lhsIdx j k 1).val = (k ⟨0, by decide⟩).val :=
  dot_S1024x512_S512x1024_S1024x1024_1_0_0_1_n_n.lhsIdx_val_of_single rfl j k

theorem rhsB_0 (j : S1024x1024.Idx) (k : dot_S1024x512_S512x1024_S1024x1024_1_0_0_1_n_n.contr.Idx) :
    (dot_S1024x512_S512x1024_S1024x1024_1_0_0_1_n_n.rhsIdx j k 0).val = (k ⟨0, by decide⟩).val :=
  dot_S1024x512_S512x1024_S1024x1024_1_0_0_1_n_n.rhsIdx_val_of_single rfl j k

theorem rhsB_1 (j : S1024x1024.Idx) (k : dot_S1024x512_S512x1024_S1024x1024_1_0_0_1_n_n.contr.Idx) :
    (dot_S1024x512_S512x1024_S1024x1024_1_0_0_1_n_n.rhsIdx j k 1).val = (j 1).val := by
  simp [DotDims.rhsIdx, dot_S1024x512_S512x1024_S1024x1024_1_0_0_1_n_n]; rfl

/-- A [1024, 512] by [512, 1024] block product into the zero accumulator, at (r, c): the sum over the 512 contracted
    positions of the products of the entries. -/
theorem matmulB_apply (A : FVec Ideal S1024x512 .bf16) (B : FVec Ideal S512x1024 .bf16) (r c : Fin 1024) :
    matmul dot_S1024x512_S512x1024_S1024x1024_1_0_0_1_n_n none A B (constant S1024x1024 .f32 0x00000000#32) (ix2 r c)
      = ∑ i : Fin 512, A (ix2 r i) * B (ix2 i c) := by
  show FloatOps.matmul _ none A B (constant S1024x1024 .f32 0x00000000#32) (ix2 r c) = _
  rw [Ideal.matmul_constant_zero_apply,
    ← Equiv.sum_comp (contrEquiv1 dot_S1024x512_S512x1024_S1024x1024_1_0_0_1_n_n 512 rfl rfl).symm]
  refine Finset.sum_congr rfl fun q _ => ?_
  have hq := contrEquiv1_symm_val dot_S1024x512_S512x1024_S1024x1024_1_0_0_1_n_n 512 rfl rfl q
  have hl : dot_S1024x512_S512x1024_S1024x1024_1_0_0_1_n_n.lhsIdx (ix2 r c)
      ((contrEquiv1 dot_S1024x512_S512x1024_S1024x1024_1_0_0_1_n_n 512 rfl rfl).symm q) = ix2 r q := by
    funext ax; apply Fin.ext
    match ax with
    | ⟨0, _⟩ => exact lhsB_0 _ _
    | ⟨1, _⟩ => exact (lhsB_1 _ _).trans hq
  have hr : dot_S1024x512_S512x1024_S1024x1024_1_0_0_1_n_n.rhsIdx (ix2 r c)
      ((contrEquiv1 dot_S1024x512_S512x1024_S1024x1024_1_0_0_1_n_n 512 rfl rfl).symm q) = ix2 q c := by
    funext ax; apply Fin.ext
    match ax with
    | ⟨0, _⟩ => exact (rhsB_0 _ _).trans hq
    | ⟨1, _⟩ => exact rhsB_1 _ _
  rw [hl, hr]

/-! ## Loaded blocks under their casts

A loaded block's leading unit axis is dropped before use; a bias row is then repeated over the 1024 token rows. -/

/-- The token block as the products read it: entry (r, k) of the loaded block. -/
theorem pay4_apply (x0 : Vec Ideal S1x1024x1024 .f32) (r k : Fin 1024) :
    k0_pay4 (F := Ideal) x0 (ix2 r k) = x0 (ix3 0 r k) := by
  unfold k0_pay4
  exact shapeCast_1ab_ab_apply x0 _ r k

/-- A [1, 1, 512] bias row, cast to [1, 512] and repeated over the token rows, at (r, i): its entry i. -/
theorem bias512_apply (b : Vec Ideal S1x1x512 .f32) (h1 : S1x1x512.ShapeCasts S1x512) (h2 : S1x512.Broadcasts S1024x512)
    (r : Fin 1024) (i : Fin 512) :
    broadcastTo S1024x512 (shapeCast S1x512 b h1) h2 (ix2 r i) = b (ix3 0 0 i) :=
  (broadcastTo_1b_ab_apply _ h2 r i).trans (shapeCast_1ab_ab_apply b h1 0 i)

/-- The same for the [1, 1, 1024] output bias row. -/
theorem bias1024_apply (b : Vec Ideal S1x1x1024 .f32) (h1 : S1x1x1024.ShapeCasts S1x1024) (h2 : S1x1024.Broadcasts S1024x1024)
    (r c : Fin 1024) :
    broadcastTo S1024x1024 (shapeCast S1x1024 b h1) h2 (ix2 r c) = b (ix3 0 0 c) :=
  (broadcastTo_1b_ab_apply _ h2 r c).trans (shapeCast_1ab_ab_apply b h1 0 c)

/-- The token block times a loaded [1, 1024, 512] weight block, at (r, i). -/
theorem proj_apply (x0 : Vec Ideal S1x1024x1024 .f32) (w : Vec Ideal S1x1024x512 .f32)
    (h : S1x1024x512.ShapeCasts S1024x512) (hb : FTy.bits .bf16 < FTy.bits .f32) (r : Fin 1024) (i : Fin 512) :
    matmul dot_S1024x1024_S1024x512_S1024x512_1_0_0_1_n_n none (k0_pay4 x0) (truncf .bf16 (shapeCast S1024x512 w h) hb)
        (constant S1024x512 .f32 0x00000000#32) (ix2 r i)
      = ∑ k : Fin 1024, x0 (ix3 0 r k) * w (ix3 0 k i) :=
  (matmulA_apply (k0_pay4 x0) _ r i).trans
    (Finset.sum_congr rfl fun k _ => congrArg₂ (· * ·) (pay4_apply x0 r k) (shapeCast_1ab_ab_apply w h k i))

/-- That product plus its bias row, at (r, i): a pre-activation of the half. -/
theorem pre_apply (x0 : Vec Ideal S1x1024x1024 .f32) (w : Vec Ideal S1x1024x512 .f32) (b : Vec Ideal S1x1x512 .f32)
    (h : S1x1024x512.ShapeCasts S1024x512) (hb : FTy.bits .bf16 < FTy.bits .f32)
    (h1 : S1x1x512.ShapeCasts S1x512) (h2 : S1x512.Broadcasts S1024x512) (r : Fin 1024) (i : Fin 512) :
    addf (matmul dot_S1024x1024_S1024x512_S1024x512_1_0_0_1_n_n none (k0_pay4 x0) (truncf .bf16 (shapeCast S1024x512 w h) hb)
        (constant S1024x512 .f32 0x00000000#32)) (broadcastTo S1024x512 (shapeCast S1x512 b h1) h2) (ix2 r i)
      = (∑ k : Fin 1024, x0 (ix3 0 r k) * w (ix3 0 k i)) + b (ix3 0 0 i) :=
  (addf_apply _ _ _).trans (congrArg₂ (· + ·) (proj_apply x0 w h hb r i) (bias512_apply b h1 h2 r i))

/-- The gated activation of two pre-activation blocks `g`, `u`, times a loaded [1, 512, 1024] down-weight block, at
    (r, c). -/
theorem down_apply (g u : FVec Ideal S1024x512 .f32) (dw : Vec Ideal S1x512x1024 .f32)
    (h : S1x512x1024.ShapeCasts S512x1024) (hb : FTy.bits .bf16 < FTy.bits .f32) (r c : Fin 1024) :
    matmul dot_S1024x512_S512x1024_S1024x1024_1_0_0_1_n_n none (truncf .bf16 (mulf (mulf g (logistic g)) u) hb)
        (truncf .bf16 (shapeCast S512x1024 dw h) hb) (constant S1024x1024 .f32 0x00000000#32) (ix2 r c)
      = ∑ i : Fin 512, ((g (ix2 r i) * Ideal.logistic (g (ix2 r i))) * u (ix2 r i)) * dw (ix3 0 i c) :=
  (matmulB_apply _ _ r c).trans
    (Finset.sum_congr rfl fun i _ =>
      congrArg (((g (ix2 r i) * Ideal.logistic (g (ix2 r i))) * u (ix2 r i)) * ·) (shapeCast_1ab_ab_apply dw h i c))

/-! ## The payloads at an index -/

/-- The second half's gate product, at (r, i). -/
theorem pay6_apply (x0 : Vec Ideal S1x1024x1024 .f32) (v27 : Vec Ideal S1x1024x512 .f32) (r : Fin 1024) (i : Fin 512) :
    k0_pay6 (F := Ideal) x0 v27 (ix2 r i) = ∑ k : Fin 1024, x0 (ix3 0 r k) * v27 (ix3 0 k i) := by
  unfold k0_pay6
  exact proj_apply x0 v27 _ _ r i

/-- The first half's contribution, at (r, c). -/
theorem pay5_apply (x0 : Vec Ideal S1x1024x1024 .f32) (v3 : Vec Ideal S1x1024x512 .f32) (v7 : Vec Ideal S1x1x512 .f32)
    (v11 : Vec Ideal S1x1024x512 .f32) (v15 : Vec Ideal S1x1x512 .f32) (v23 : Vec Ideal S1x512x1024 .f32) (r c : Fin 1024) :
    k0_pay5 (F := Ideal) x0 v3 v7 v11 v15 v23 (ix2 r c) = ∑ i : Fin 512, hloc x0 v3 v11 v7 v15 r i * v23 (ix3 0 i c) := by
  unfold k0_pay5
  refine (down_apply _ _ v23 _ _ r c).trans ?_
  refine Finset.sum_congr rfl fun i _ => ?_
  exact congrArg (· * v23 (ix3 0 i c))
    (hloc_of_eq x0 v3 v11 v7 v15 r i (pre_apply x0 v3 v7 _ _ _ _ r i) (pre_apply x0 v11 v15 _ _ _ _ r i))

/-- The tile's result at (r, c): the two halves' contributions. -/
theorem pay1_apply (x0 : Vec Ideal S1x1024x1024 .f32) (v3 v11 v27 v35 : Vec Ideal S1x1024x512 .f32) (v7 v15 v31 v39 : Vec Ideal S1x1x512 .f32) (v23 v47 : Vec Ideal S1x512x1024 .f32) (r c : Fin 1024) :
    k0_pay1 (F := Ideal) (k0_pay4 x0) (k0_pay5 x0 v3 v7 v11 v15 v23) (k0_pay6 x0 v27) v31 v35 v39 v47 (ix2 r c)
      = (∑ i : Fin 512, hloc x0 v3 v11 v7 v15 r i * v23 (ix3 0 i c)) + (∑ i : Fin 512, hloc x0 v27 v35 v31 v39 r i * v47 (ix3 0 i c)) := by
  unfold k0_pay1
  refine (addf_apply _ _ _).trans (congrArg₂ (· + ·) (pay5_apply x0 v3 v7 v11 v15 v23 r c) ?_)
  refine (down_apply _ _ v47 _ _ r c).trans ?_
  refine Finset.sum_congr rfl fun i _ => ?_
  exact congrArg (· * v47 (ix3 0 i c))
    (hloc_of_eq x0 v27 v35 v31 v39 r i
      ((addf_apply _ _ _).trans (congrArg₂ (· + ·) (pay6_apply x0 v27 r i) (bias512_apply v31 _ _ r i)))
      (pre_apply x0 v35 v39 _ _ _ _ r i))

/-- The first tile of an expert stores the tile's result plus the output bias row. -/
theorem pay2_apply (v2 : FVec Ideal S1024x1024 .bf16) (v26 : FVec Ideal S1024x1024 .f32) (v30 : FVec Ideal S1024x512 .f32) (v31 : Vec Ideal S1x1x512 .f32) (v35 : Vec Ideal S1x1024x512 .f32) (v39 : Vec Ideal S1x1x512 .f32) (v47 : Vec Ideal S1x512x1024 .f32) (v58 : Vec Ideal S1x1x1024 .f32) (r c : Fin 1024) :
    k0_pay2 (F := Ideal) v2 v26 v30 v31 v35 v39 v47 v58 (ix3 0 r c) = k0_pay1 v2 v26 v30 v31 v35 v39 v47 (ix2 r c) + v58 (ix3 0 0 c) := by
  unfold k0_pay2
  refine (shapeCast_ab_1ab_apply _ _ 0 r c).trans ?_
  exact (addf_apply _ _ _).trans
    (congrArg (k0_pay1 v2 v26 v30 v31 v35 v39 v47 (ix2 r c) + ·) (bias1024_apply v58 _ _ r c))

/-- A later tile stores what the output block holds plus the tile's result. -/
theorem pay3_apply (v2 : FVec Ideal S1024x1024 .bf16) (v26 : FVec Ideal S1024x1024 .f32) (v30 : FVec Ideal S1024x512 .f32) (v31 : Vec Ideal S1x1x512 .f32) (v35 : Vec Ideal S1x1024x512 .f32) (v39 : Vec Ideal S1x1x512 .f32) (v47 : Vec Ideal S1x512x1024 .f32) (v58 : Vec Ideal S1x1024x1024 .f32) (r c : Fin 1024) :
    k0_pay3 (F := Ideal) v2 v26 v30 v31 v35 v39 v47 v58 (ix3 0 r c) = v58 (ix3 0 r c) + k0_pay1 v2 v26 v30 v31 v35 v39 v47 (ix2 r c) := by
  unfold k0_pay3
  refine (shapeCast_ab_1ab_apply _ _ 0 r c).trans ?_
  exact (addf_apply _ _ _).trans
    (congrArg (· + k0_pay1 v2 v26 v30 v31 v35 v39 v47 (ix2 r c)) (shapeCast_1ab_ab_apply v58 _ r c))

end Cert.KernelIdeal.Pay

end
-- ==== Proof.KI.Blocks.lean ====
import proofs.«134815_g25151328485597_cont_8to1_849_10_alg».proof.Proof.KI.Runs
import Idealize.ShloMosaic.Lib.Pipeline.Value
import Idealize.ShloMosaic.Lib.ValueIdx
import Idealize.ShloMosaic.Lib.StableHlo.Run

/-!
# The windows' blocks as entries of the argument arrays

The kernel runs over a grid of 8 experts by 1 token tile by 4 hidden tiles. At each grid point every input window hands
the body one block of its array. This module says, entry by entry, which entry of which ARGUMENT array each block entry
is: the activations x [8, 1024, 1024], the fused gate-and-up weights [8, 1024, 8192] (gate columns first, up columns
from 4096 on), the down weights [8, 4096, 1024], the fused bias [8, 8192] and the down bias [8, 1024] (both reshaped
with a unit axis before the region, which the reading here undoes). For the output window it says where a block entry
sits in the result array, and that the blocks written back fill the array.

Everything is generic in the float instance: no arithmetic is done here, only indices are computed.
-/

set_option maxRecDepth 16384

noncomputable section

namespace Cert.KernelIdeal.Frm

open Cert.KernelIdeal Cert.KernelIdeal.Gen
open Idealize.ShloMosaic Idealize.ShloMosaic.TcCoe
open Idealize.ShloMosaic.ValueIdx
open Idealize.SL.Sem

variable {F : FTy → Type} [FloatOps F]
variable (m : (ℓ : Loc nD τ sig) → Buf (Elt F) ℓ)

/-! ## Grid points as coordinates

The grid is [8, 1, 4]: point t works on expert t / 4 and on hidden tile t % 4 (the token axis has one tile). -/

/-- The expert a grid point works on: the point's first coordinate. -/
def eOf (t : Fin cfg0.N) : Fin 8 := ⟨t.val / 4, by have h : cfg0.N = 32 := Gen.N_0; have := t.isLt; omega⟩
/-- The hidden tile a grid point works on: the point's last coordinate. -/
def kOf (t : Fin cfg0.N) : Fin 4 := ⟨t.val % 4, Nat.mod_lt _ (by decide)⟩

/-- The eight index maps at every grid point, decided over the 32 points: each window's block index on each axis as a
    function of the point's expert t / 4 and hidden tile t % 4. The up halves (windows 2 and 4) sit four tiles after the
    gate halves (windows 1 and 3) on the fused axis. -/
theorem idx_facts : ∀ t : Fin cfg0.N,
    (win0_0.index t (0 : Fin 3) = t.val / 4 ∧ win0_0.index t (1 : Fin 3) = 0 ∧ win0_0.index t (2 : Fin 3) = 0)
  ∧ (win0_1.index t (0 : Fin 3) = t.val / 4 ∧ win0_1.index t (1 : Fin 3) = 0 ∧ win0_1.index t (2 : Fin 3) = t.val % 4)
  ∧ (win0_2.index t (0 : Fin 3) = t.val / 4 ∧ win0_2.index t (1 : Fin 3) = 0 ∧ win0_2.index t (2 : Fin 3) = t.val % 4 + 4)
  ∧ (win0_3.index t (0 : Fin 3) = t.val / 4 ∧ win0_3.index t (1 : Fin 3) = 0 ∧ win0_3.index t (2 : Fin 3) = t.val % 4)
  ∧ (win0_4.index t (0 : Fin 3) = t.val / 4 ∧ win0_4.index t (1 : Fin 3) = 0 ∧ win0_4.index t (2 : Fin 3) = t.val % 4 + 4)
  ∧ (win0_5.index t (0 : Fin 3) = t.val / 4 ∧ win0_5.index t (1 : Fin 3) = t.val % 4 ∧ win0_5.index t (2 : Fin 3) = 0)
  ∧ (win0_6.index t (0 : Fin 3) = t.val / 4 ∧ win0_6.index t (1 : Fin 3) = 0 ∧ win0_6.index t (2 : Fin 3) = 0)
  ∧ (win0_7.index t (0 : Fin 3) = t.val / 4 ∧ win0_7.index t (1 : Fin 3) = 0 ∧ win0_7.index t (2 : Fin 3) = 0) :=
  (by decide +kernel : ∀ t : Fin grid0.N, _)

/-! ## The two reshaped biases

Before the region the fused bias [8, 8192] is reshaped to [8, 1, 8192] and the down bias [8, 1024] to [8, 1, 1024]: a
unit axis is inserted, so entry (e, 0, q) of the reshaped array is entry (e, q) of the argument. -/

/-- The fused bias as the region finds it is the reshape of argument 3. -/
theorem V_fused_bias (c : Dev nD) : (V m c main_call0_v0 : S8x1x8192.Idx → Elt F .f32)
    = shapeCast (s := S8x8192) S8x1x8192 (m ((c.tc : Thread nD τ).loc main_arg3)) Facts₀.shapeCasts_S8x8192_S8x1x8192 := by
  dsimp only [V, hostOps0]; after_results; rfl

/-- The down bias as the region finds it is the reshape of argument 4. -/
theorem V_down_bias (c : Dev nD) : (V m c main_call0_v1 : S8x1x1024.Idx → Elt F .f32)
    = shapeCast (s := S8x1024) S8x1x1024 (m ((c.tc : Thread nD τ).loc main_arg4)) Facts₀.shapeCasts_S8x1024_S8x1x1024 := by
  dsimp only [V, hostOps0]; after_results; rfl

/-- Entry (e, 0, q) of the reshaped fused bias is entry (e, q) of argument 3: both sit at row-major position e · 8192 + q. -/
theorem V_fused_bias_apply (c : Dev nD) (e : Fin 8) (q : Fin 8192) :
    (V m c main_call0_v0 : S8x1x8192.Idx → Elt F .f32) (ix3 e 0 q) = m ((c.tc : Thread nD τ).loc main_arg3) (ix2 e q) := by
  refine (congrFun (V_fused_bias m c) _).trans ?_
  refine shapeCast_apply (s := S8x8192) (t := S8x1x8192) _ _ _ (ix2 e q) ?_
  rw [Shape.rowMajor_val_two, Shape.rowMajor_val_three]
  show e.val * 8192 + q.val = (e.val * 1 + 0) * 8192 + q.val
  omega

/-- Entry (e, 0, h) of the reshaped down bias is entry (e, h) of argument 4: both sit at row-major position e · 1024 + h. -/
theorem V_down_bias_apply (c : Dev nD) (e : Fin 8) (h : Fin 1024) :
    (V m c main_call0_v1 : S8x1x1024.Idx → Elt F .f32) (ix3 e 0 h) = m ((c.tc : Thread nD τ).loc main_arg4) (ix2 e h) := by
  refine (congrFun (V_down_bias m c) _).trans ?_
  refine shapeCast_apply (s := S8x1024) (t := S8x1x1024) _ _ _ (ix2 e h) ?_
  rw [Shape.rowMajor_val_two, Shape.rowMajor_val_three]
  show e.val * 1024 + h.val = (e.val * 1 + 0) * 1024 + h.val
  omega

/-! ## The input blocks

Each window's block at a point, named at its literal type. An entry of a block sits in the window's array, on each axis,
at the block index times the block's size plus the entry's own coordinate. -/

/-- The activations' block: expert e's [1024, 1024] tokens-by-model slab. -/
abbrev blk0 (c : Dev nD) (t : Fin cfg0.N) : Vec F S1x1024x1024 .f32 := iblk m c 0 t
/-- The gate weights' block: 1024 columns of the fused weights' first half. -/
abbrev blk1 (c : Dev nD) (t : Fin cfg0.N) : Vec F S1x1024x1024 .f32 := iblk m c 1 t
/-- The up weights' block: the matching 1024 columns of the fused weights' second half. -/
abbrev blk2 (c : Dev nD) (t : Fin cfg0.N) : Vec F S1x1024x1024 .f32 := iblk m c 2 t
/-- The gate bias's block. -/
abbrev blk3 (c : Dev nD) (t : Fin cfg0.N) : Vec F S1x1x1024 .f32 := iblk m c 3 t
/-- The up bias's block. -/
abbrev blk4 (c : Dev nD) (t : Fin cfg0.N) : Vec F S1x1x1024 .f32 := iblk m c 4 t
/-- The down weights' block: 1024 rows of expert e's down projection. -/
abbrev blk5 (c : Dev nD) (t : Fin cfg0.N) : Vec F S1x1024x1024 .f32 := iblk m c 5 t
/-- The down bias's block. -/
abbrev blk6 (c : Dev nD) (t : Fin cfg0.N) : Vec F S1x1x1024 .f32 := iblk m c 6 t

/-- The activations' block at point t is expert t / 4's slab of argument 0. -/
theorem blk0_apply (c : Dev nD) (t : Fin cfg0.N) (r j : Fin 1024) :
    blk0 m c t (ix3 0 r j) = m ((c.tc : Thread nD τ).loc main_arg0) (ix3 (eOf t) r j) := by
  obtain ⟨⟨h0, h1, h2⟩, -⟩ := idx_facts t
  show V m c main_arg0 (((cfg0.win 0).blk t).view.emb (ix3 0 r j : S1x1024x1024.Idx)) = _
  refine (congrFun (V_main_arg0 m c) _).trans ?_
  refine congrArg _ ?_
  funext a; apply Fin.ext
  match a with
  | ⟨0, _⟩ => show win0_0.index t (0 : Fin 3) * 1 + 1 * 0 = t.val / 4; omega
  | ⟨1, _⟩ => show win0_0.index t (1 : Fin 3) * 1024 + 1 * r.val = r.val; omega
  | ⟨2, _⟩ => show win0_0.index t (2 : Fin 3) * 1024 + 1 * j.val = j.val; omega

/-- The gate weights' block at point t is columns (t % 4) · 1024 … of expert t / 4's fused weights. -/
theorem blk1_apply (c : Dev nD) (t : Fin cfg0.N) (r j : Fin 1024) :
    blk1 m c t (ix3 0 r j) = m ((c.tc : Thread nD τ).loc main_arg1)
      (ix3 (eOf t) r ⟨(kOf t).val * 1024 + j.val, by have := (kOf t).isLt; have := j.isLt; omega⟩) := by
  obtain ⟨-, ⟨h0, h1, h2⟩, -⟩ := idx_facts t
  show V m c main_arg1 (((cfg0.win 1).blk t).view.emb (ix3 0 r j : S1x1024x1024.Idx)) = _
  refine (congrFun (V_main_arg1 m c) _).trans ?_
  refine congrArg _ ?_
  funext a; apply Fin.ext
  match a with
  | ⟨0, _⟩ => show win0_1.index t (0 : Fin 3) * 1 + 1 * 0 = t.val / 4; omega
  | ⟨1, _⟩ => show win0_1.index t (1 : Fin 3) * 1024 + 1 * r.val = r.val; omega
  | ⟨2, _⟩ => show win0_1.index t (2 : Fin 3) * 1024 + 1 * j.val = t.val % 4 * 1024 + j.val; omega

/-- The up weights' block at point t is columns 4096 + (t % 4) · 1024 … of expert t / 4's fused weights. -/
theorem blk2_apply (c : Dev nD) (t : Fin cfg0.N) (r j : Fin 1024) :
    blk2 m c t (ix3 0 r j) = m ((c.tc : Thread nD τ).loc main_arg1)
      (ix3 (eOf t) r ⟨4096 + (kOf t).val * 1024 + j.val, by have := (kOf t).isLt; have := j.isLt; omega⟩) := by
  obtain ⟨-, -, ⟨h0, h1, h2⟩, -⟩ := idx_facts t
  show V m c main_arg1 (((cfg0.win 2).blk t).view.emb (ix3 0 r j : S1x1024x1024.Idx)) = _
  refine (congrFun (V_main_arg1 m c) _).trans ?_
  refine congrArg _ ?_
  funext a; apply Fin.ext
  match a with
  | ⟨0, _⟩ => show win0_2.index t (0 : Fin 3) * 1 + 1 * 0 = t.val / 4; omega
  | ⟨1, _⟩ => show win0_2.index t (1 : Fin 3) * 1024 + 1 * r.val = r.val; omega
  | ⟨2, _⟩ => show win0_2.index t (2 : Fin 3) * 1024 + 1 * j.val = 4096 + t.val % 4 * 1024 + j.val; omega

/-- The gate bias's block at point t is entries (t % 4) · 1024 … of expert t / 4's fused bias, argument 3. -/
theorem blk3_apply (c : Dev nD) (t : Fin cfg0.N) (j : Fin 1024) :
    blk3 m c t (ix3 0 0 j) = m ((c.tc : Thread nD τ).loc main_arg3)
      (ix2 (eOf t) ⟨(kOf t).val * 1024 + j.val, by have := (kOf t).isLt; have := j.isLt; omega⟩) := by
  obtain ⟨-, -, -, ⟨h0, h1, h2⟩, -⟩ := idx_facts t
  show (V m c main_call0_v0 : S8x1x8192.Idx → Elt F .f32) (((cfg0.win 3).blk t).view.emb (ix3 0 0 j : S1x1x1024.Idx)) = _
  refine Eq.trans (congrArg (V m c main_call0_v0 : S8x1x8192.Idx → Elt F .f32) ?_)
    (V_fused_bias_apply m c (eOf t) ⟨(kOf t).val * 1024 + j.val, by have := (kOf t).isLt; have := j.isLt; omega⟩)
  funext a; apply Fin.ext
  match a with
  | ⟨0, _⟩ => show win0_3.index t (0 : Fin 3) * 1 + 1 * 0 = t.val / 4; omega
  | ⟨1, _⟩ => show win0_3.index t (1 : Fin 3) * 1 + 1 * 0 = 0; omega
  | ⟨2, _⟩ => show win0_3.index t (2 : Fin 3) * 1024 + 1 * j.val = t.val % 4 * 1024 + j.val; omega

/-- The up bias's block at point t is entries 4096 + (t % 4) · 1024 … of expert t / 4's fused bias, argument 3. -/
theorem blk4_apply (c : Dev nD) (t : Fin cfg0.N) (j : Fin 1024) :
    blk4 m c t (ix3 0 0 j) = m ((c.tc : Thread nD τ).loc main_arg3)
      (ix2 (eOf t) ⟨4096 + (kOf t).val * 1024 + j.val, by have := (kOf t).isLt; have := j.isLt; omega⟩) := by
  obtain ⟨-, -, -, -, ⟨h0, h1, h2⟩, -⟩ := idx_facts t
  show (V m c main_call0_v0 : S8x1x8192.Idx → Elt F .f32) (((cfg0.win 4).blk t).view.emb (ix3 0 0 j : S1x1x1024.Idx)) = _
  refine Eq.trans (congrArg (V m c main_call0_v0 : S8x1x8192.Idx → Elt F .f32) ?_)
    (V_fused_bias_apply m c (eOf t) ⟨4096 + (kOf t).val * 1024 + j.val, by have := (kOf t).isLt; have := j.isLt; omega⟩)
  funext a; apply Fin.ext
  match a with
  | ⟨0, _⟩ => show win0_4.index t (0 : Fin 3) * 1 + 1 * 0 = t.val / 4; omega
  | ⟨1, _⟩ => show win0_4.index t (1 : Fin 3) * 1 + 1 * 0 = 0; omega
  | ⟨2, _⟩ => show win0_4.index t (2 : Fin 3) * 1024 + 1 * j.val = 4096 + t.val % 4 * 1024 + j.val; omega

/-- The down weights' block at point t is rows (t % 4) · 1024 … of expert t / 4's down projection, argument 2. -/
theorem blk5_apply (c : Dev nD) (t : Fin cfg0.N) (i h : Fin 1024) :
    blk5 m c t (ix3 0 i h) = m ((c.tc : Thread nD τ).loc main_arg2)
      (ix3 (eOf t) ⟨(kOf t).val * 1024 + i.val, by have := (kOf t).isLt; have := i.isLt; omega⟩ h) := by
  obtain ⟨-, -, -, -, -, ⟨h0, h1, h2⟩, -⟩ := idx_facts t
  show V m c main_arg2 (((cfg0.win 5).blk t).view.emb (ix3 0 i h : S1x1024x1024.Idx)) = _
  refine (congrFun (V_main_arg2 m c) _).trans ?_
  refine congrArg _ ?_
  funext a; apply Fin.ext
  match a with
  | ⟨0, _⟩ => show win0_5.index t (0 : Fin 3) * 1 + 1 * 0 = t.val / 4; omega
  | ⟨1, _⟩ => show win0_5.index t (1 : Fin 3) * 1024 + 1 * i.val = t.val % 4 * 1024 + i.val; omega
  | ⟨2, _⟩ => show win0_5.index t (2 : Fin 3) * 1024 + 1 * h.val = h.val; omega

/-- The down bias's block at point t is expert t / 4's row of argument 4. -/
theorem blk6_apply (c : Dev nD) (t : Fin cfg0.N) (h : Fin 1024) :
    blk6 m c t (ix3 0 0 h) = m ((c.tc : Thread nD τ).loc main_arg4) (ix2 (eOf t) h) := by
  obtain ⟨-, -, -, -, -, -, ⟨h0, h1, h2⟩, -⟩ := idx_facts t
  show (V m c main_call0_v1 : S8x1x1024.Idx → Elt F .f32) (((cfg0.win 6).blk t).view.emb (ix3 0 0 h : S1x1x1024.Idx)) = _
  refine Eq.trans (congrArg (V m c main_call0_v1 : S8x1x1024.Idx → Elt F .f32) ?_) (V_down_bias_apply m c (eOf t) h)
  funext a; apply Fin.ext
  match a with
  | ⟨0, _⟩ => show win0_6.index t (0 : Fin 3) * 1 + 1 * 0 = t.val / 4; omega
  | ⟨1, _⟩ => show win0_6.index t (1 : Fin 3) * 1 + 1 * 0 = 0; omega
  | ⟨2, _⟩ => show win0_6.index t (2 : Fin 3) * 1024 + 1 * h.val = h.val; omega

/-! ## The output window

Its block at point t is expert t / 4's [1024, 1024] slab of the result array, written back at the last of the expert's
four points; the eight slabs fill the array. -/

/-- An array read through the output block at point t is the array at expert t / 4's slab. -/
theorem out_blk_read (G : Vec F S8x1024x1024 .f32) (t : Fin cfg0.N) (r j : Fin 1024) :
    ((cfg0.win 7).blk t).view.read (Elt F) G (ix3 0 r j) = G (ix3 (eOf t) r j) := by
  obtain ⟨-, -, -, -, -, -, -, h0, h1, h2⟩ := idx_facts t
  show G (((cfg0.win 7).blk t).view.emb (ix3 0 r j : S1x1024x1024.Idx)) = _
  refine congrArg G ?_
  funext a; apply Fin.ext
  match a with
  | ⟨0, _⟩ => show win0_7.index t (0 : Fin 3) * 1 + 1 * 0 = t.val / 4; omega
  | ⟨1, _⟩ => show win0_7.index t (1 : Fin 3) * 1024 + 1 * r.val = r.val; omega
  | ⟨2, _⟩ => show win0_7.index t (2 : Fin 3) * 1024 + 1 * j.val = j.val; omega

/-- Every entry of the result array lies in a block that is written back: entry (e, r, j) in the block of point 4 · e + 3,
    the last of expert e's four points. -/
theorem out_cover (i : S8x1024x1024.Idx) :
    ∃ t : Fin cfg0.N, (cfg0.win 7).flush t = true ∧ i ∈ ((cfg0.win 7).blk t).view.set := by
  have hN : cfg0.N = 32 := Gen.N_0
  have hi0 : (i 0).val < 8 := (i 0).isLt
  have hi1 : (i 1).val < 1024 := (i 1).isLt
  have hi2 : (i 2).val < 1024 := (i 2).isLt
  obtain ⟨t, ht⟩ : ∃ t : Fin cfg0.N, t.val = 4 * (i 0).val + 3 := ⟨⟨4 * (i 0).val + 3, by omega⟩, rfl⟩
  refine ⟨t, (flush0_7 t).mpr (by omega), ?_⟩
  obtain ⟨-, -, -, -, -, -, -, h0, h1, h2⟩ := idx_facts t
  show i ∈ ((View.whole main_v0).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 1024 ≤ (i 2).val ∧ (i 2).val < win0_7.index t (2 : Fin 3) * 1024 + 1024; omega

end Cert.KernelIdeal.Frm

end
-- ==== Proof.Spec.lean ====
import Idealize.ShloMosaic.PureOps.Ideal
import Idealize.ShloMosaic.Lib.ValueIdx

/-!
# The fused expert feed-forward layer, as one function of its five arrays

For expert e, token t and output column h, with the activations x, the fused gate-and-up weights and bias, the
down weights and bias:

    pre e t j  = (sum over k < 1024 of x[e, t, k] * w[e, k, j]) + b[e, j]                (j < 8192)
    hid e t i  = (pre e t i * logistic (pre e t i)) * pre e t (4096 + i)                  (i < 4096)
    out e t h  = (sum over i < 4096 of hid e t i * d[e, i, h]) + c[e, h]

over the extended reals. Both programs compute this; they differ in how the sum over i is cut and ordered.
-/

noncomputable section

namespace Cert.Spec

open Idealize.ShloMosaic Idealize.ShloMosaic.ValueIdx

abbrev SX : Shape := ⟨3, ![8, 1024, 1024]⟩
abbrev SW : Shape := ⟨3, ![8, 1024, 8192]⟩
abbrev SD : Shape := ⟨3, ![8, 4096, 1024]⟩
abbrev SB : Shape := ⟨2, ![8, 8192]⟩
abbrev SC : Shape := ⟨2, ![8, 1024]⟩

variable (x : FVec Ideal SX .f32) (w : FVec Ideal SW .f32) (d : FVec Ideal SD .f32) (b : FVec Ideal SB .f32) (c : FVec Ideal SC .f32)

/-- Column j of the fused gate-and-up projection of token t of expert e, bias added. -/
def pre (e : Fin 8) (t : Fin 1024) (j : Fin 8192) : EReal :=
  (∑ k : Fin 1024, x (ix3 e t k) * w (ix3 e k j)) + b (ix2 e j)

/-- The gated hidden activation: the gate column through x * logistic x, times the up column 4096 further on. -/
def hid (e : Fin 8) (t : Fin 1024) (i : Fin 4096) : EReal :=
  (pre x w b e t ⟨i.val, by omega⟩ * Ideal.logistic (pre x w b e t ⟨i.val, by omega⟩)) * pre x w b e t ⟨4096 + i.val, by omega⟩

/-- The layer's output at explicit coordinates. -/
def outAt (e : Fin 8) (t : Fin 1024) (h : Fin 1024) : EReal :=
  (∑ i : Fin 4096, hid x w b e t i * d (ix3 e i h)) + c (ix2 e h)

/-- The layer's output as one array. -/
def G : FVec Ideal SX .f32 := fun j => outAt x w d b c (j 0) (j 1) (j 2)

theorem G_apply (e : Fin 8) (t : Fin 1024) (h : Fin 1024) : G x w d b c (ix3 e t h) = outAt x w d b c e t h := rfl

end Cert.Spec

end
-- ==== Proof.KI.Tile.lean ====
/-
  One grid point's contribution to its expert's output block, read at an index, in the specification's terms.

  Point t works expert e = t / 4 and the tile k = t % 4 of 1024 hidden columns, as the two half-tiles 2k and 2k + 1 of
  512 columns each. The blocks it reads are restrictions of the argument arrays: the token block is expert e's rows of
  the activations; the gate and up weight blocks are columns 1024k … and 4096 + 1024k … of expert e's fused weights, the
  two bias blocks the same columns of the fused bias; the down weight block is rows 1024k … of expert e's down weights.
  Reading each half-block at an index and substituting, the body's gated activation of a half (`Pay.hloc`) at hidden
  column q of the half is the specification's `Spec.hid` at hidden column 512·j + q (j the half-tile's number), so each
  half's product with the down weights is that half-tile's slice of the specification's sum over the hidden axis
  (`halfSum`), and the tile's contribution is the sum of its two slices (`contrib_apply`).
-/
import proofs.«134815_g25151328485597_cont_8to1_849_10_alg».proof.Proof.KI.Pieces
import proofs.«134815_g25151328485597_cont_8to1_849_10_alg».proof.Proof.KI.Payload
import proofs.«134815_g25151328485597_cont_8to1_849_10_alg».proof.Proof.KI.Blocks
import proofs.«134815_g25151328485597_cont_8to1_849_10_alg».proof.Proof.Spec
import Idealize.ShloMosaic.Lib.ValueIdx
import Idealize.ShloMosaic.Lib.Pipeline.FrameBody

noncomputable section

open scoped BigOperators

namespace Cert.KernelIdeal.Frm

open Cert.KernelIdeal Cert.KernelIdeal.Gen Cert.KernelIdeal.Pay
open Idealize.ShloMosaic Idealize.ShloMosaic.TcCoe Idealize.ShloMosaic.ValueIdx
open Idealize.SL.Sem

variable (m : (ℓ : Loc nD τ sig) → Buf (Elt Ideal) ℓ)

/-! ## A half-block at an index

A half-block is the block read through a unit-stride rectangle: its entry at a coordinate is the block's entry at the
rectangle's offset plus that coordinate. -/

theorem colsLo_apply (X : Vec Ideal S1x1024x1024 .f32) (r : Fin 1024) (q : Fin 512) :
    colsLo X (ix3 0 r q) = X (ix3 0 r ⟨q.val, by omega⟩) := by
  show X _ = X _
  congr 1
  funext a; apply Fin.ext
  match a with
  | ⟨0, _⟩ => rfl
  | ⟨1, _⟩ => show 0 + 1 * r.val = r.val; omega
  | ⟨2, _⟩ => show 0 + 1 * q.val = q.val; omega

theorem colsHi_apply (X : Vec Ideal S1x1024x1024 .f32) (r : Fin 1024) (q : Fin 512) :
    colsHi X (ix3 0 r q) = X (ix3 0 r ⟨512 + q.val, by omega⟩) := by
  show X _ = X _
  congr 1
  funext a; apply Fin.ext
  match a with
  | ⟨0, _⟩ => rfl
  | ⟨1, _⟩ => show 0 + 1 * r.val = r.val; omega
  | ⟨2, _⟩ => show 512 + 1 * q.val = 512 + q.val; omega

theorem biasLo_apply (X : Vec Ideal S1x1x1024 .f32) (q : Fin 512) :
    biasLo X (ix3 0 0 q) = X (ix3 0 0 ⟨q.val, by omega⟩) := by
  show X _ = X _
  congr 1
  funext a; apply Fin.ext
  match a with
  | ⟨0, _⟩ => rfl
  | ⟨1, _⟩ => rfl
  | ⟨2, _⟩ => show 0 + 1 * q.val = q.val; omega

theorem biasHi_apply (X : Vec Ideal S1x1x1024 .f32) (q : Fin 512) :
    biasHi X (ix3 0 0 q) = X (ix3 0 0 ⟨512 + q.val, by omega⟩) := by
  show X _ = X _
  congr 1
  funext a; apply Fin.ext
  match a with
  | ⟨0, _⟩ => rfl
  | ⟨1, _⟩ => rfl
  | ⟨2, _⟩ => show 512 + 1 * q.val = 512 + q.val; omega

theorem rowsLo_apply (X : Vec Ideal S1x1024x1024 .f32) (q : Fin 512) (h : Fin 1024) :
    rowsLo X (ix3 0 q h) = X (ix3 0 ⟨q.val, by omega⟩ h) := by
  show X _ = X _
  congr 1
  funext a; apply Fin.ext
  match a with
  | ⟨0, _⟩ => rfl
  | ⟨1, _⟩ => show 0 + 1 * q.val = q.val; omega
  | ⟨2, _⟩ => show 0 + 1 * h.val = h.val; omega

theorem rowsHi_apply (X : Vec Ideal S1x1024x1024 .f32) (q : Fin 512) (h : Fin 1024) :
    rowsHi X (ix3 0 q h) = X (ix3 0 ⟨512 + q.val, by omega⟩ h) := by
  show X _ = X _
  congr 1
  funext a; apply Fin.ext
  match a with
  | ⟨0, _⟩ => rfl
  | ⟨1, _⟩ => show 512 + 1 * q.val = 512 + q.val; omega
  | ⟨2, _⟩ => show 0 + 1 * h.val = h.val; omega

/-! ## A half of the body against a half-tile of the specification, over blocks and arrays as variables -/

/-- When a half's token, weight and bias blocks are the arrays' entries of expert e at hidden columns 512·J + q (gate)
    and 4096 + 512·J + q (up), the half's gated activation at column q is the specification's at column 512·J + q. -/
theorem hloc_eq_hid (AX : FVec Ideal Cert.Spec.SX .f32) (AW : FVec Ideal Cert.Spec.SW .f32) (AB : FVec Ideal Cert.Spec.SB .f32)
    (x0 : Vec Ideal S1x1024x1024 .f32) (gw uw : Vec Ideal S1x1024x512 .f32) (gb ub : Vec Ideal S1x1x512 .f32)
    (e : Fin 8) (J : Nat) (hJ : J < 8)
    (h0 : ∀ r κ : Fin 1024, x0 (ix3 0 r κ) = AX (ix3 e r κ))
    (hgw : ∀ (κ : Fin 1024) (q : Fin 512), gw (ix3 0 κ q) = AW (ix3 e κ ⟨512 * J + q.val, by omega⟩))
    (huw : ∀ (κ : Fin 1024) (q : Fin 512), uw (ix3 0 κ q) = AW (ix3 e κ ⟨4096 + (512 * J + q.val), by omega⟩))
    (hgb : ∀ q : Fin 512, gb (ix3 0 0 q) = AB (ix2 e ⟨512 * J + q.val, by omega⟩))
    (hub : ∀ q : Fin 512, ub (ix3 0 0 q) = AB (ix2 e ⟨4096 + (512 * J + q.val), by omega⟩))
    (r : Fin 1024) (q : Fin 512) :
    hloc x0 gw uw gb ub r q = Cert.Spec.hid AX AW AB e r ⟨512 * J + q.val, by omega⟩ := by
  unfold hloc Cert.Spec.hid Cert.Spec.pre
  simp only [h0, hgw, huw, hgb, hub]

/-- So the half's product with its down-weight block, at (r, h), is that half-tile's slice of the specification's sum
    over the hidden axis. -/
theorem half_eq (AX : FVec Ideal Cert.Spec.SX .f32) (AW : FVec Ideal Cert.Spec.SW .f32) (AD : FVec Ideal Cert.Spec.SD .f32)
    (AB : FVec Ideal Cert.Spec.SB .f32)
    (x0 : Vec Ideal S1x1024x1024 .f32) (gw uw : Vec Ideal S1x1024x512 .f32) (gb ub : Vec Ideal S1x1x512 .f32)
    (dw : Vec Ideal S1x512x1024 .f32) (e : Fin 8) (J : Nat) (hJ : J < 8)
    (h0 : ∀ r κ : Fin 1024, x0 (ix3 0 r κ) = AX (ix3 e r κ))
    (hgw : ∀ (κ : Fin 1024) (q : Fin 512), gw (ix3 0 κ q) = AW (ix3 e κ ⟨512 * J + q.val, by omega⟩))
    (huw : ∀ (κ : Fin 1024) (q : Fin 512), uw (ix3 0 κ q) = AW (ix3 e κ ⟨4096 + (512 * J + q.val), by omega⟩))
    (hgb : ∀ q : Fin 512, gb (ix3 0 0 q) = AB (ix2 e ⟨512 * J + q.val, by omega⟩))
    (hub : ∀ q : Fin 512, ub (ix3 0 0 q) = AB (ix2 e ⟨4096 + (512 * J + q.val), by omega⟩))
    (hdw : ∀ (q : Fin 512) (h : Fin 1024), dw (ix3 0 q h) = AD (ix3 e ⟨512 * J + q.val, by omega⟩ h))
    (r h : Fin 1024) :
    ∑ q : Fin 512, hloc x0 gw uw gb ub r q * dw (ix3 0 q h)
      = ∑ q : Fin 512, Cert.Spec.hid AX AW AB e r ⟨512 * J + q.val, by omega⟩ * AD (ix3 e ⟨512 * J + q.val, by omega⟩ h) :=
  Finset.sum_congr rfl fun q _ =>
    congrArg₂ (· * ·) (hloc_eq_hid AX AW AB x0 gw uw gb ub e J hJ h0 hgw huw hgb hub r q) (hdw q h)

/-- The tile's contribution from six blocks that are the arrays' entries of expert e at tile k's 1024 hidden columns:
    the two half-tiles 2k and 2k + 1 of the specification's sum. -/
theorem contrib_of_blocks (AX : FVec Ideal Cert.Spec.SX .f32) (AW : FVec Ideal Cert.Spec.SW .f32)
    (AD : FVec Ideal Cert.Spec.SD .f32) (AB : FVec Ideal Cert.Spec.SB .f32)
    (x0 x1 x2 : Vec Ideal S1x1024x1024 .f32) (x3 x4 : Vec Ideal S1x1x1024 .f32) (x5 : Vec Ideal S1x1024x1024 .f32)
    (e : Fin 8) (k : Fin 4)
    (h0 : ∀ r j : Fin 1024, x0 (ix3 0 r j) = AX (ix3 e r j))
    (h1 : ∀ r j : Fin 1024, x1 (ix3 0 r j) = AW (ix3 e r ⟨k.val * 1024 + j.val, by omega⟩))
    (h2 : ∀ r j : Fin 1024, x2 (ix3 0 r j) = AW (ix3 e r ⟨4096 + k.val * 1024 + j.val, by omega⟩))
    (h3 : ∀ j : Fin 1024, x3 (ix3 0 0 j) = AB (ix2 e ⟨k.val * 1024 + j.val, by omega⟩))
    (h4 : ∀ j : Fin 1024, x4 (ix3 0 0 j) = AB (ix2 e ⟨4096 + k.val * 1024 + j.val, by omega⟩))
    (h5 : ∀ i h : Fin 1024, x5 (ix3 0 i h) = AD (ix3 e ⟨k.val * 1024 + i.val, by omega⟩ h))
    (r h : Fin 1024) :
    contrib (F := Ideal) x0 x1 x2 x3 x4 x5 (ix2 r h)
      = (∑ q : Fin 512, Cert.Spec.hid AX AW AB e r ⟨512 * (2 * k.val) + q.val, by omega⟩
            * AD (ix3 e ⟨512 * (2 * k.val) + q.val, by omega⟩ h))
        + (∑ q : Fin 512, Cert.Spec.hid AX AW AB e r ⟨512 * (2 * k.val + 1) + q.val, by omega⟩
            * AD (ix3 e ⟨512 * (2 * k.val + 1) + q.val, by omega⟩ h)) := by
  unfold contrib
  refine (pay1_apply x0 (colsLo x1) (colsLo x2) (colsHi x1) (colsHi x2) (biasLo x3) (biasLo x4) (biasHi x3) (biasHi x4)
    (rowsLo x5) (rowsHi x5) r h).trans ?_
  refine congrArg₂ (· + ·) ?_ ?_
  · refine half_eq AX AW AD AB x0 (colsLo x1) (colsLo x2) (biasLo x3) (biasLo x4) (rowsLo x5) e (2 * k.val) (by omega)
      h0 ?_ ?_ ?_ ?_ ?_ r h
    · intro κ q
      exact (colsLo_apply x1 κ q).trans ((h1 κ _).trans (congrArg (fun z => AW (ix3 e κ z))
        (Fin.ext (by show k.val * 1024 + q.val = 512 * (2 * k.val) + q.val; omega))))
    · intro κ q
      exact (colsLo_apply x2 κ q).trans ((h2 κ _).trans (congrArg (fun z => AW (ix3 e κ z))
        (Fin.ext (by show 4096 + k.val * 1024 + q.val = 4096 + (512 * (2 * k.val) + q.val); omega))))
    · intro q
      exact (biasLo_apply x3 q).trans ((h3 _).trans (congrArg (fun z => AB (ix2 e z))
        (Fin.ext (by show k.val * 1024 + q.val = 512 * (2 * k.val) + q.val; omega))))
    · intro q
      exact (biasLo_apply x4 q).trans ((h4 _).trans (congrArg (fun z => AB (ix2 e z))
        (Fin.ext (by show 4096 + k.val * 1024 + q.val = 4096 + (512 * (2 * k.val) + q.val); omega))))
    · intro q h'
      exact (rowsLo_apply x5 q h').trans ((h5 _ h').trans (congrArg (fun z => AD (ix3 e z h'))
        (Fin.ext (by show k.val * 1024 + q.val = 512 * (2 * k.val) + q.val; omega))))
  · refine half_eq AX AW AD AB x0 (colsHi x1) (colsHi x2) (biasHi x3) (biasHi x4) (rowsHi x5) e (2 * k.val + 1) (by omega)
      h0 ?_ ?_ ?_ ?_ ?_ r h
    · intro κ q
      exact (colsHi_apply x1 κ q).trans ((h1 κ _).trans (congrArg (fun z => AW (ix3 e κ z))
        (Fin.ext (by show k.val * 1024 + (512 + q.val) = 512 * (2 * k.val + 1) + q.val; omega))))
    · intro κ q
      exact (colsHi_apply x2 κ q).trans ((h2 κ _).trans (congrArg (fun z => AW (ix3 e κ z))
        (Fin.ext (by show 4096 + k.val * 1024 + (512 + q.val) = 4096 + (512 * (2 * k.val + 1) + q.val); omega))))
    · intro q
      exact (biasHi_apply x3 q).trans ((h3 _).trans (congrArg (fun z => AB (ix2 e z))
        (Fin.ext (by show k.val * 1024 + (512 + q.val) = 512 * (2 * k.val + 1) + q.val; omega))))
    · intro q
      exact (biasHi_apply x4 q).trans ((h4 _).trans (congrArg (fun z => AB (ix2 e z))
        (Fin.ext (by show 4096 + k.val * 1024 + (512 + q.val) = 4096 + (512 * (2 * k.val + 1) + q.val); omega))))
    · intro q h'
      exact (rowsHi_apply x5 q h').trans ((h5 _ h').trans (congrArg (fun z => AD (ix3 e z h'))
        (Fin.ext (by show k.val * 1024 + (512 + q.val) = 512 * (2 * k.val + 1) + q.val; omega))))

/-! ## At a grid point -/

/-- One half-tile of the specification's sum over the hidden axis: hidden columns 512·j … 512·j + 511. -/
def halfSum (c : Dev nD) (e : Fin 8) (r h : Fin 1024) (j : Fin 8) : EReal :=
  ∑ q : Fin 512, Cert.Spec.hid (m ((c.tc : Thread nD τ).loc main_arg0)) (m ((c.tc : Thread nD τ).loc main_arg1)) (m ((c.tc : Thread nD τ).loc main_arg3)) e r ⟨512 * j.val + q.val, by omega⟩
      * m ((c.tc : Thread nD τ).loc main_arg2) (ix3 e ⟨512 * j.val + q.val, by omega⟩ h)

/-- The tile's contribution at point t, read at (r, h): the two half-tiles 2k and 2k + 1 of expert e. -/
theorem contrib_apply (c : Dev nD) (t : Fin cfg0.N) (r h : Fin 1024) :
    contrib (F := Ideal) (blk0 m c t) (blk1 m c t) (blk2 m c t) (blk3 m c t) (blk4 m c t) (blk5 m c t) (ix2 r h)
      = halfSum m c (eOf t) r h ⟨2 * (kOf t).val, by have := (kOf t).isLt; omega⟩ + halfSum m c (eOf t) r h ⟨2 * (kOf t).val + 1, by have := (kOf t).isLt; omega⟩ :=
  contrib_of_blocks (m ((c.tc : Thread nD τ).loc main_arg0)) (m ((c.tc : Thread nD τ).loc main_arg1))
    (m ((c.tc : Thread nD τ).loc main_arg2)) (m ((c.tc : Thread nD τ).loc main_arg3))
    (blk0 m c t) (blk1 m c t) (blk2 m c t) (blk3 m c t) (blk4 m c t) (blk5 m c t) (eOf t) (kOf t)
    (blk0_apply m c t) (blk1_apply m c t) (blk2_apply m c t) (blk3_apply m c t) (blk4_apply m c t) (blk5_apply m c t) r h

end Cert.KernelIdeal.Frm
end
-- ==== Proof.KI.Launch.lean ====
import proofs.«134815_g25151328485597_cont_8to1_849_10_alg».proof.Proof.KI.Runs
import Idealize.ShloMosaic.Lib.Pipeline.Frame
import Idealize.ShloMosaic.Lib.Pipeline.Kit
import Idealize.ShloMosaic.Lib.Pipeline.Launch

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the eight windows' arrays, listed: six, each whole at the full share at contents `V`. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1)
          ∗ (((c : Thread nD τ).loc main_call0_v0) ↦{fullShare} V main_call0_v0) ∗ (((c : Thread nD τ).loc main_arg2) ↦{fullShare} V main_arg2)
          ∗ (((c : Thread nD τ).loc main_call0_v1) ↦{fullShare} V main_call0_v1) ∗ (((c : Thread nD τ).loc main_v0) ↦{fullShare} V main_v0)) := by
  unfold Pipeline.arrBufs
  exact bigSep_eq_bigSepL_of_eq [main_arg0, main_arg1, main_call0_v0, main_arg2, main_call0_v1, main_v0] (by decide) (by decide) _

/-- The array behind window `w`, held at the share `q` the proof data gives that window, at the contents the
    region finds it with: one conjunct of the proof data's arrays at entry. A whole array's element set is everything,
    and before any write-back the array holds its entry contents. -/
theorem arrays_at (c : Dev nD) (dat : Dat τ (Elt F) Unit ℕ (UR sig nD τ) ℕ cfg0 c)
    (hA : ∀ w, dat.A w = V m c (Pipeline.arrRef spec0 w)) (w : Fin 8) (q : PosShare TreeShare) (hs : dat.share w = q) :
    ((cfg0.win w).arr.view.loc (c.tc : Thread nD τ) ↦[(cfg0.win w).arr.view.set]{dat.share w} dat.arrAt w 0 : sProp 𝕄)
      = (((c.tc : Thread nD τ).loc (Pipeline.arrRef spec0 w)) ↦{q} V m c (Pipeline.arrRef spec0 w)) := by
  rw [(arr_whole0 w).set_eq_univ, hs, ← hA w]
  rfl

/-- The buffers behind the windows' arrays, each whole at the full share at the region-entry contents, make the
    proof data's arrays at entry: the full share of the fused weights (`main_arg1`, windows 1 and 2) is split into the halves its two windows hold,
    and so is that of the fused bias as reshaped (`main_call0_v0`, windows 3 and 4); every other array goes whole to its one window. -/
theorem hsplit (c : Dev nD) (dat : Dat τ (Elt F) Unit ℕ (UR sig nD τ) ℕ cfg0 c)
    (hA : ∀ w, dat.A w = V m c (Pipeline.arrRef spec0 w)) (hq : ∀ w, dat.q w = qsh w) :
    (Pipeline.arrBufs (Ix := Unit) (Name := ℕ) (U := UR sig nD τ) (Lvl := ℕ) spec0 c (V m c) : sProp 𝕄)
      ⊢ dat.arrays (dat.arrAt · 0) := by
  have hs0 : dat.share 0 = fullShare := (if_neg Bool.false_ne_true).trans (hq 0)
  have hs1 : dat.share 1 = fullShare.left := (if_neg Bool.false_ne_true).trans (hq 1)
  have hs2 : dat.share 2 = fullShare.right := (if_neg Bool.false_ne_true).trans (hq 2)
  have hs3 : dat.share 3 = fullShare.left := (if_neg Bool.false_ne_true).trans (hq 3)
  have hs4 : dat.share 4 = fullShare.right := (if_neg Bool.false_ne_true).trans (hq 4)
  have hs5 : dat.share 5 = fullShare := (if_neg Bool.false_ne_true).trans (hq 5)
  have hs6 : dat.share 6 = fullShare := (if_neg Bool.false_ne_true).trans (hq 6)
  have hs7 : dat.share 7 = fullShare := if_pos rfl
  unfold Dat.arrays
  rw [arrBufs0_eq, bigSep_W0,
    arrays_at m c dat hA 0 _ hs0, arrays_at m c dat hA 1 _ hs1, arrays_at m c dat hA 2 _ hs2, arrays_at m c dat hA 3 _ hs3,
    arrays_at m c dat hA 4 _ hs4, arrays_at m c dat hA 5 _ hs5, arrays_at m c dat hA 6 _ hs6, arrays_at m c dat hA 7 _ hs7]
  iintro ⟨H0, H1, Hv0, H2, Hv1, Ho⟩
  ihave H1s := (pointsTo_share (PosShare.mem_left_op_right fullShare)).1 $$ H1
  icases H1s with ⟨H1l, H1r⟩
  ihave Hv0s := (pointsTo_share (PosShare.mem_left_op_right fullShare)).1 $$ Hv0
  icases Hv0s with ⟨Hv0l, Hv0r⟩
  isplitl [H0]; · iexact H0
  isplitl [H1l]; · iexact H1l
  isplitl [H1r]; · iexact H1r
  isplitl [Hv0l]; · iexact Hv0l
  isplitl [Hv0r]; · iexact Hv0r
  isplitl [H2]; · iexact H2
  isplitl [Hv1]; · iexact Hv1
  iexact Ho

/-- The launch, for ANY exact proof data over the region-entry contents with the stated shares, nothing owed, the scoped rest as invariant, and its body obligation. -/
theorem run_main_of (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qsh w)
    (howed : ∀ c t, (dats 0 c).owed t = 0)
    (hΦ : ∀ c t, (dats 0 c).Φ t = Pipeline.scopedRest (Ix := Unit) (Name := ℕ) (U := UR sig nD τ) (Lvl := ℕ) (Val := Elt F) spec0 c)
    (hbody : ∀ c, Pipeline.BodyObligationLoose (dats 0 c) (defs₀ (F := F)) Variants.none () Set.univ) :
    θ_run defs (onTc (τ := τ) (main (F := F))) ⟨m, fun _ => 0, ρ⟩ (Pipeline.FramePost cfgs dats 0 (V m)) :=
  Pipeline.θ_run_region_noSem_shared cfgs dats () cellOf_inj (0 : Fin 1) winFacts₀0 emb₁ defs₀ Variants.none m ρ main
    (hbody := hbody) (hne := block_pos0) (harr := arr_whole0) (hstage := stage_whole0) (howed := howed)
    (u₀ := initOf (Pipeline.cells cfgs cellOf_inj) (Pipeline.launchToks cfgs cellOf_inj)) (hu₀ := BI.Entails.refl _)
    (V := V m) (hmain := hmain m Variants.none)
    (hsplit := fun c => hsplit m c (dats 0 c) (hA c) (hq c))
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [hΦ]; iintro ⟨-, H⟩; iexact H)
    (hout := fun c => by rw [hΦ]; iintro H; isplitr; · iempintro
                         iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame claim's post (every argument array ends as launched) from a run to FramePost: arguments 0, 1 and 2 are
    input windows' arrays, which no write-back touches; arguments 3 and 4 are staged by no window (the windows read
    their reshapes) and bypass the region. Neither reshape before the region writes an argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) ⟨m, fun _ => 0, ρ⟩ (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 5).trans (((dats 0 c).arrAt_in 5 rfl _).trans ((hA c 5).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

end Cert.KernelIdeal.Frm

end
-- ==== Proof.KI.Main.lean ====
import proofs.«134815_g25151328485597_cont_8to1_849_10_alg».proof.Proof.KI.Frame
import proofs.«134815_g25151328485597_cont_8to1_849_10_alg».proof.Proof.KI.Launch

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

/-- At the compiled mesh, for any values, from any memory with zero counters: every weakly fair execution of the
    program terminates, and every final state has every window's array at what the proof data computes (an input its
    entry contents, the output the accumulation written back) and every other unscoped buffer as the region found it. -/
theorem run_main : θ_run defs (onTc (τ := τ) (main (F := F))) ⟨m, fun _ => 0, ρ⟩ (Pipeline.FramePost cfgs (dats m) 0 (V m)) :=
  run_main_of m ρ (dats m) (A_eq m) (fun _ _ => rfl) (fun _ _ => rfl) (fun _ _ => rfl) (fun c => (body_obligation m c).loose)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Frm

end
-- ==== Proof.LibSumSplit.lean ====
import Mathlib.Algebra.BigOperators.Fin
import Mathlib.Logic.Equiv.Fin.Basic

/-!
A sum over `Fin N` with `N = a · b` is the double sum over the `a` consecutive runs of `b` indices:
index `b · t + q` is the `q`-th of run `t`.
-/

open scoped BigOperators

namespace Cert.SumSplit

/-- Index `b · t + q` of run `t` lies below `a · b`. -/
theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

/-- THE SPLIT: `∑ n < a·b, f n = ∑ t < a, ∑ q < b, f (b·t + q)`. -/
theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.KI.Regroup.lean ====
import Mathlib.Algebra.BigOperators.Fin
import proofs.«134815_g25151328485597_cont_8to1_849_10_alg».proof.Proof.LibSumSplit

/-!
The kernel adds an expert's eight half-tile sums into its output block two at a time, tile by tile, the bias going in
with the first tile; the specification adds the bias to the one sum over all 4096 hidden columns. In a commutative
monoid the two agree.
-/

open scoped BigOperators

namespace Cert.Regroup

/-- The kernel's association of eight terms and a bias is their sum plus the bias. -/
theorem tiles_eq_sum {M : Type*} [AddCommMonoid M] (H : Fin 8 → M) (C : M) :
    ((((H 0 + H 1) + C) + (H 2 + H 3)) + (H 4 + H 5)) + (H 6 + H 7) = (∑ j : Fin 8, H j) + C := by
  rw [Fin.sum_univ_eight]
  ac_rfl

/-- A sum over 4096 indices as eight runs of 512. -/
theorem sum_runs {M : Type*} [AddCommMonoid M] (f : Fin 4096 → M) :
    ∑ i, f i = ∑ j : Fin 8, ∑ q : Fin 512, f ⟨512 * j.val + q.val, Cert.SumSplit.lt_of_run (a := 8) (b := 512) rfl j q⟩ :=
  Cert.SumSplit.sum_split 8 512 4096 rfl f

/-- Both at once: the kernel's tile-by-tile total of the runs of f, with the bias, is the whole sum of f plus the bias. -/
theorem tiles_eq_total {M : Type*} [AddCommMonoid M] (f : Fin 4096 → M) (C : M) (H : Fin 8 → M)
    (hH : ∀ j : Fin 8, H j = ∑ q : Fin 512, f ⟨512 * j.val + q.val, Cert.SumSplit.lt_of_run (a := 8) (b := 512) rfl j q⟩) :
    ((((H 0 + H 1) + C) + (H 2 + H 3)) + (H 4 + H 5)) + (H 6 + H 7) = (∑ i, f i) + C := by
  rw [tiles_eq_sum, sum_runs f]
  exact congrArg (· + C) (Finset.sum_congr rfl fun j _ => hH j)

end Cert.Regroup
-- ==== Proof.KI.Value.lean ====
import proofs.«134815_g25151328485597_cont_8to1_849_10_alg».proof.Proof.KI.Tile
import proofs.«134815_g25151328485597_cont_8to1_849_10_alg».proof.Proof.KI.Main
import proofs.«134815_g25151328485597_cont_8to1_849_10_alg».proof.Proof.KI.Payload
import proofs.«134815_g25151328485597_cont_8to1_849_10_alg».proof.Proof.KI.Blocks
import proofs.«134815_g25151328485597_cont_8to1_849_10_alg».proof.Proof.KI.Regroup
import proofs.«134815_g25151328485597_cont_8to1_849_10_alg».proof.Proof.LibSumSplit
import proofs.«134815_g25151328485597_cont_8to1_849_10_alg».proof.Proof.Spec
import Idealize.ShloMosaic.Lib.Pipeline.Value
import Idealize.ShloMosaic.Lib.ValueIdx

/-!
# The idealized kernel's result, named

The output array after the run is the fused expert feed-forward layer of the five argument arrays. Entry (r, h) of
expert e's output block is built over the expert's four grid points: the first stores its tile's contribution plus the
down bias, each later one adds its tile's contribution, and the last is written back. A tile's contribution is two
runs of 512 of the sum over the 4096 hidden columns, so the four tiles give the eight runs; in a commutative monoid
their total with the bias is the whole sum plus the bias, which is the specification's entry (e, r, h). The eight
written-back blocks fill the array.
-/
set_option maxRecDepth 16384

noncomputable section

open scoped BigOperators

namespace Cert.KernelIdeal.Frm

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The accumulation read at an entry

Entry (r, h) of the output block after a point: at the first of an expert's four points the tile's contribution plus the
down bias; at each later point what the point before left plus the tile's contribution. -/

/-- The tile's contribution at point t to entry (r, h) of the output block. -/
abbrev tileC (c : Dev nD) (t : Fin cfg0.N) (r h : Fin 1024) : EReal :=
  contrib (F := Ideal) (blk0 m c t) (blk1 m c t) (blk2 m c t) (blk3 m c t) (blk4 m c t) (blk5 m c t) (ix2 r h)

/-- The accumulation after position n does not depend on how n is written. -/
theorem outsAt0_congr (c : Dev nD) {n n' : ℕ} (hn : n < cfg0.N) (hn' : n' < cfg0.N) (e : n = n') :
    outsAt0 m c n hn = outsAt0 m c n' hn' := by
  subst e; rfl

/-- At a first point: the contribution plus the down bias. -/
theorem acc_A (c : Dev nD) (t : Fin cfg0.N) (h0 : t.val % 4 = 0) (r h : Fin 1024) :
    outsAt0 m c t.val t.isLt (ix3 0 r h) = tileC m c t r h + blk6 m c t (ix3 0 0 h) := by
  rw [outsAt0_A m c t h0]
  refine (congrFun (out0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_1 t).mpr h0) (fun h => (hcond0_2 t).mp h h0) (iblk m c 0 t) (iblk m c 1 t) (iblk m c 2 t) (iblk m c 3 t) (iblk m c 4 t) (iblk m c 5 t) (iblk m c 6 t)) (ix3 0 r h)).trans ?_
  unfold tileC contrib
  exact Pay.pay2_apply _ _ _ _ _ _ _ _ r h

/-- At a later point: what the point before left plus the contribution. -/
theorem acc_B (c : Dev nD) (t : Fin cfg0.N) (h0 : ¬t.val % 4 = 0) (r h : Fin 1024) :
    outsAt0 m c t.val t.isLt (ix3 0 r h)
      = outsAt0 m c (t.val - 1) (Nat.lt_of_le_of_lt (Nat.sub_le _ _) t.isLt) (ix3 0 r h) + tileC m c t r h := by
  rw [outsAt0_B m c t h0]
  refine (congrFun (out0_B_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_1 t).mp h)) ((hcond0_2 t).mpr h0) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt))) (ix3 0 r h)).trans ?_
  unfold tileC contrib
  exact Pay.pay3_apply _ _ _ _ _ _ _ _ r h

/-- After the last of an expert's four points, started at position n₀: the four tiles' contributions in the order the
    kernel adds them, the down bias going in with the first. -/
theorem acc_last (c : Dev nD) (n₀ : ℕ) (hn : n₀ + 1 + 1 + 1 < cfg0.N) (h0 : n₀ % 4 = 0) (r h : Fin 1024) :
    outsAt0 m c (n₀ + 1 + 1 + 1) hn (ix3 0 r h)
      = (((tileC m c ⟨n₀, by omega⟩ r h + blk6 m c ⟨n₀, by omega⟩ (ix3 0 0 h)) + tileC m c ⟨n₀ + 1, by omega⟩ r h)
          + tileC m c ⟨n₀ + 1 + 1, by omega⟩ r h) + tileC m c ⟨n₀ + 1 + 1 + 1, hn⟩ r h := by
  have e3 := acc_B m c ⟨n₀ + 1 + 1 + 1, hn⟩ (by show ¬(n₀ + 1 + 1 + 1) % 4 = 0; omega) r h
  have e2 := acc_B m c ⟨n₀ + 1 + 1, by omega⟩ (by show ¬(n₀ + 1 + 1) % 4 = 0; omega) r h
  have e1 := acc_B m c ⟨n₀ + 1, by omega⟩ (by show ¬(n₀ + 1) % 4 = 0; omega) r h
  have e0 := acc_A m c ⟨n₀, by omega⟩ h0 r h
  refine e3.trans ?_
  refine congrArg (· + tileC m c ⟨n₀ + 1 + 1 + 1, hn⟩ r h) ?_
  refine (congrFun (outsAt0_congr m c _ _ (by omega : n₀ + 1 + 1 + 1 - 1 = n₀ + 1 + 1)) (ix3 0 r h)).trans (e2.trans ?_)
  refine congrArg (· + tileC m c ⟨n₀ + 1 + 1, by omega⟩ r h) ?_
  refine (congrFun (outsAt0_congr m c _ _ (by omega : n₀ + 1 + 1 - 1 = n₀ + 1)) (ix3 0 r h)).trans (e1.trans ?_)
  refine congrArg (· + tileC m c ⟨n₀ + 1, by omega⟩ r h) ?_
  exact (congrFun (outsAt0_congr m c _ _ (by omega : n₀ + 1 - 1 = n₀)) (ix3 0 r h)).trans e0

/-! ## A tile's contribution as two runs of the hidden sum -/

theorem two_mul_lt (k : Fin 4) : 2 * k.val < 8 := by omega
theorem two_mul_succ_lt (k : Fin 4) : 2 * k.val + 1 < 8 := by omega

/-- At a point of expert e, the tile's contribution is the two half-sums the point's hidden tile spans, named j₀, j₁. -/
theorem tile_at (c : Dev nD) (t : Fin cfg0.N) (e : Fin 8) (j₀ j₁ : Fin 8) (he : t.val / 4 = e.val)
    (h₀ : j₀.val = 2 * (t.val % 4)) (h₁ : j₁.val = 2 * (t.val % 4) + 1) (r h : Fin 1024) :
    tileC m c t r h = halfSum m c e r h j₀ + halfSum m c e r h j₁ := by
  obtain rfl : e = eOf t := Fin.ext he.symm
  obtain rfl : j₀ = ⟨2 * (kOf t).val, two_mul_lt _⟩ := Fin.ext h₀
  obtain rfl : j₁ = ⟨2 * (kOf t).val + 1, two_mul_succ_lt _⟩ := Fin.ext h₁
  exact contrib_apply m c t r h

/-! ## The written-back block is the specification's -/

/-- After the last of expert e's four points, entry (r, h) of the output block is the specification's entry (e, r, h). -/
theorem acc_eq_outAt (c : Dev nD) (t : Fin cfg0.N) (h3 : t.val % 4 = 3) (r h : Fin 1024) :
    outsAt0 m c t.val t.isLt (ix3 0 r h)
      = Cert.Spec.outAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (eOf t) r h := by
  have hN : t.val < 32 := lt_of_lt_of_eq t.isLt (show cfg0.N = 32 from N_0)
  obtain ⟨n₀, hn₀⟩ : ∃ n₀, t.val = n₀ + 1 + 1 + 1 := ⟨t.val - 3, by omega⟩
  have hlt : n₀ + 1 + 1 + 1 < cfg0.N := hn₀ ▸ t.isLt
  have hb : blk6 m c ⟨n₀, by omega⟩ (ix3 0 0 h) = m ((c.tc : Thread nD τ).loc main_arg4) (ix2 (eOf t) h) := by
    rw [blk6_apply]
    exact congrArg (fun e => m ((c.tc : Thread nD τ).loc main_arg4) (ix2 e h)) (Fin.ext (by show n₀ / 4 = t.val / 4; omega))
  rw [congrFun (outsAt0_congr m c t.isLt hlt hn₀) (ix3 0 r h), acc_last m c n₀ hlt (by omega) r h, hb,
    tile_at m c ⟨n₀, by omega⟩ (eOf t) 0 1 (by show n₀ / 4 = t.val / 4; omega) (by show 0 = 2 * (n₀ % 4); omega) (by show 1 = 2 * (n₀ % 4) + 1; omega) r h,
    tile_at m c ⟨n₀ + 1, by omega⟩ (eOf t) 2 3 (by show (n₀ + 1) / 4 = t.val / 4; omega) (by show 2 = 2 * ((n₀ + 1) % 4); omega) (by show 3 = 2 * ((n₀ + 1) % 4) + 1; omega) r h,
    tile_at m c ⟨n₀ + 1 + 1, by omega⟩ (eOf t) 4 5 (by show (n₀ + 1 + 1) / 4 = t.val / 4; omega) (by show 4 = 2 * ((n₀ + 1 + 1) % 4); omega) (by show 5 = 2 * ((n₀ + 1 + 1) % 4) + 1; omega) r h,
    tile_at m c ⟨n₀ + 1 + 1 + 1, hlt⟩ (eOf t) 6 7 (by show (n₀ + 1 + 1 + 1) / 4 = t.val / 4; omega) (by show 6 = 2 * ((n₀ + 1 + 1 + 1) % 4); omega) (by show 7 = 2 * ((n₀ + 1 + 1 + 1) % 4) + 1; omega) r h]
  exact Cert.Regroup.tiles_eq_total
    (fun i => Cert.Spec.hid (m ((c.tc : Thread nD τ).loc main_arg0)) (m ((c.tc : Thread nD τ).loc main_arg1)) (m ((c.tc : Thread nD τ).loc main_arg3)) (eOf t) r i
      * m ((c.tc : Thread nD τ).loc main_arg2) (ix3 (eOf t) i h))
    (m ((c.tc : Thread nD τ).loc main_arg4) (ix2 (eOf t) h)) (fun j => halfSum m c (eOf t) r h j) (fun j => rfl)

/-- What the write-back at the last of an expert's four points writes is that expert's slab of the specification. -/
theorem flushed7 (c : Dev nD) (t : Fin cfg0.N) (hf : (cfg0.win 7).flush t = true) :
    (dats m 0 c).flushed 7 t
      = ((cfg0.win 7).blk t).view.read (Elt Ideal)
          (Cert.Spec.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))) := by
  have h3 : t.val % 4 = 3 := (flush0_7 t).mp hf
  show (cfg0.win 7).cut (grid0.coords t) ((dats m 0 c).after 7 t) = _
  rw [after0_7]
  refine funext fun (j : S1x1024x1024.Idx) => ?_
  have hj0 : j 0 = (0 : Fin 1) := Fin.ext (Nat.lt_one_iff.mp (j 0).isLt)
  obtain ⟨r, h, rfl⟩ : ∃ r h : Fin 1024, j = ix3 0 r h := ⟨j 1, j 2, (eq_ix3 j).trans (congrArg (fun a : Fin 1 => ix3 a (j 1) (j 2)) hj0)⟩
  show outsAt0 m c t.val t.isLt (ix3 0 r h) = _
  rw [acc_eq_outAt m c t h3 r h]
  exact ((out_blk_read (F := Ideal) (Cert.Spec.G (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))) t r h).trans (Cert.Spec.G_apply _ _ _ _ _ (eOf t) r h)).symm

/-- The output array after the run is the specification of the five argument arrays. -/
theorem final7 (c : Dev nD) :
    (dats m 0 c).arrAt 7 cfg0.N
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) :=
  (dats m 0 c).arrAt_eq_of_cover 7 _ (flushed7 m c) out_cover

/-- The idealized kernel's run with its result NAMED. -/
theorem run_value : θ_run (defs (F := Ideal)) (onTc (τ := τ) (main (F := Ideal))) ⟨m, fun _ => 0, ρ⟩ (fun r => ∀ c : Dev nD,
      r.2.mem ((c.tc : Thread nD τ).loc main_v0)
        = Cert.Spec.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 5).trans (((dats m 0 c).arrAt_in 5 rfl _).trans ((A_eq m c 5).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.Frm

end
-- ==== Proof.RefSpec.lean ====
import proofs.«134815_g25151328485597_cont_8to1_849_10_alg».proof.Proof.Gen.ReferenceIdeal.Read
import proofs.«134815_g25151328485597_cont_8to1_849_10_alg».proof.Proof.Spec
import Idealize.ShloMosaic.PureOps.Ideal.Laws
import Idealize.ShloMosaic.Lib.ValueIdx

/-!
# The reference program computes the layer's specification

The reference is plain array code: a batched product of the activations with the fused gate-and-up weights, the
bias added along the token axis; the result cut into its gate half (columns below 4096) and its up half (columns
from 4096 on); the gate half through x * (1 / (1 + exp (-x))), times the up half; a second batched product with
the down weights, its bias added. Read at one index (expert e, token t, column h) over the extended reals, each
stage is the corresponding line of the specification: the first product with its bias is `pre`, the gated
product of the two halves is `hid` (the quotient 1 / (1 + exp (-g)) is the logistic function of g, the word
0x3F800000 being the real 1), and the second product with its bias is `outAt`. The sums are the same sums, term
by term, in the same order; no law of the extended reals beyond that is used.
-/

noncomputable section

namespace Cert.RefSpec

open Cert.ReferenceIdeal Idealize.ShloMosaic Idealize.ShloMosaic.TcCoe Idealize.SL.Sem Idealize.ShloMosaic.ValueIdx
open Cert.ReferenceIdeal.Read

/-- The word 0x3F800000 denotes the real 1. -/
theorem ofBits_one : Ideal.ofBits .f32 0x3F800000#32 = 1 := by
  simp [Ideal.ofBits, Ideal.ieee, -EReal.coe_mul]; norm_num

/-- The first product with its bias broadcast along the tokens, at expert e, token t, column j, is `pre`. -/
theorem pre_at (x0 : (⟨S8x1024x1024, .f32⟩ : BufTy).Contents (Elt Ideal)) (x1 : (⟨S8x1024x8192, .f32⟩ : BufTy).Contents (Elt Ideal)) (x3 : (⟨S8x8192, .f32⟩ : BufTy).Contents (Elt Ideal)) (e : Fin 8) (t : Fin 1024) (j : Fin 8192) :
    val_main_v3 (F := Ideal) x0 x1 x3 (ix3 e t j) = Cert.Spec.pre x0 x1 x3 e t j := by
  have el : ∀ k : Fin 1024, lidx_main_v0 (ix3 e t j) k = ix3 e t k := fun k => funext fun a => by match a with | ⟨0, _⟩ => rfl | ⟨1, _⟩ => rfl | ⟨2, _⟩ => rfl
  have er : ∀ k : Fin 1024, ridx_main_v0 (ix3 e t j) k = ix3 e k j := fun k => funext fun a => by match a with | ⟨0, _⟩ => rfl | ⟨1, _⟩ => rfl | ⟨2, _⟩ => rfl
  have eb : idx_main_v1 (idx_main_v2 (ix3 e t j)) = ix2 e j := funext fun a => by match a with | ⟨0, _⟩ => rfl | ⟨1, _⟩ => rfl
  rw [val_main_v3_apply, val_main_v0_apply, val_main_v2_apply, val_main_v1_apply, eb]
  simp only [el, er, Ideal.addf_def]
  rfl

/-- The gate half through x * (1 / (1 + exp (-x))), times the up half, at expert e, token t, column i, is `hid`. -/
theorem hid_at (x0 : (⟨S8x1024x1024, .f32⟩ : BufTy).Contents (Elt Ideal)) (x1 : (⟨S8x1024x8192, .f32⟩ : BufTy).Contents (Elt Ideal)) (x3 : (⟨S8x8192, .f32⟩ : BufTy).Contents (Elt Ideal)) (e : Fin 8) (t : Fin 1024) (i : Fin 4096) :
    val_main_v7 (F := Ideal) x0 x1 x3 (ix3 e t i) = Cert.Spec.hid x0 x1 x3 e t i := by
  have eg : idx_main_v4 (ix3 e t i) = ix3 e t (⟨i.val, by omega⟩ : Fin 8192) := funext fun a => by match a with | ⟨0, _⟩ => rfl | ⟨1, _⟩ => rfl | ⟨2, _⟩ => rfl
  have eu : idx_main_v5 (ix3 e t i) = ix3 e t (⟨4096 + i.val, by omega⟩ : Fin 8192) := funext fun a => by match a with | ⟨0, _⟩ => rfl | ⟨1, _⟩ => rfl | ⟨2, _⟩ => rfl
  rw [val_main_v7_apply, val_main_v6_apply, val_main_call0_v5_apply, val_main_call0_v4_apply, val_main_call0_cst_0_apply,
    val_main_call0_v3_apply, val_main_call0_v2_apply, val_main_call0_cst_apply, val_main_call0_v1_apply,
    val_main_call0_v0_apply, val_main_v4_apply, val_main_v5_apply, eg, eu, pre_at, pre_at]
  simp only [Ideal.mulf_def, Ideal.addf_def, Ideal.hostDivf_def, Ideal.hostUnary_exp_def, Ideal.hostNegf_def,
    Ideal.negf_def, Ideal.ofBits_def, ofBits_one]
  rfl

/-- The reference's last stage is the specification, index by index. -/
theorem val_eq_G (x0 : (⟨S8x1024x1024, .f32⟩ : BufTy).Contents (Elt Ideal)) (x1 : (⟨S8x1024x8192, .f32⟩ : BufTy).Contents (Elt Ideal)) (x2 : (⟨S8x4096x1024, .f32⟩ : BufTy).Contents (Elt Ideal)) (x3 : (⟨S8x8192, .f32⟩ : BufTy).Contents (Elt Ideal)) (x4 : (⟨S8x1024, .f32⟩ : BufTy).Contents (Elt Ideal)) :
    val_main_v11 x0 x1 x2 x3 x4 = Cert.Spec.G x0 x1 x2 x3 x4 := by
  funext i
  obtain ⟨e, t, h, rfl⟩ : ∃ (e : Fin 8) (t : Fin 1024) (h : Fin 1024), i = ix3 e t h := ⟨i 0, i 1, i 2, eq_ix3 i⟩
  have el : ∀ k : Fin 4096, lidx_main_v8 (ix3 e t h) k = ix3 e t k := fun k => funext fun a => by match a with | ⟨0, _⟩ => rfl | ⟨1, _⟩ => rfl | ⟨2, _⟩ => rfl
  have er : ∀ k : Fin 4096, ridx_main_v8 (ix3 e t h) k = ix3 e k h := fun k => funext fun a => by match a with | ⟨0, _⟩ => rfl | ⟨1, _⟩ => rfl | ⟨2, _⟩ => rfl
  have ec : idx_main_v9 (idx_main_v10 (ix3 e t h)) = ix2 e h := funext fun a => by match a with | ⟨0, _⟩ => rfl | ⟨1, _⟩ => rfl
  rw [val_main_v11_apply, val_main_v8_apply, val_main_v10_apply, val_main_v9_apply, ec, Cert.Spec.G_apply]
  simp only [el, er, hid_at, Ideal.addf_def]
  rfl

/-- The reference's run with its result NAMED by the specification. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono
    (fun _ hr c => ⟨(hr c).1.trans ((val_main_v11_eq (F := Ideal) _ _ _ _ _).trans (val_eq_G _ _ _ _ _)), (hr c).2⟩)
    (Cert.ReferenceIdeal.Value.run (F := Ideal) m ρ)

end Cert.RefSpec

end
-- ==== Proof.lean ====
import proofs.«134815_g25151328485597_cont_8to1_849_10_alg».proof.Defs
import proofs.«134815_g25151328485597_cont_8to1_849_10_alg».proof.Proof.Gen.Kernel
import proofs.«134815_g25151328485597_cont_8to1_849_10_alg».proof.Proof.Gen.KernelIdeal
import proofs.«134815_g25151328485597_cont_8to1_849_10_alg».proof.Proof.Gen.ReferenceIdeal
import proofs.«134815_g25151328485597_cont_8to1_849_10_alg».proof.Proof.Gen.Pre_finite_inputs
import proofs.«134815_g25151328485597_cont_8to1_849_10_alg».proof.Proof.K.Main
import proofs.«134815_g25151328485597_cont_8to1_849_10_alg».proof.Proof.KI.Value
import proofs.«134815_g25151328485597_cont_8to1_849_10_alg».proof.Proof.RefSpec

/-!
# The fused expert feed-forward kernel against its plain reference

The kernel runs one pipelined region over 8 experts × 4 tiles of the hidden axis; at each point it forms the tile's
gate and up projections of the expert's 1024 tokens (as two halves of 512 hidden columns), gates them, multiplies by
the tile's rows of the down weights, and adds the result into the expert's output block, which it initialises with the
down bias at the expert's first tile and writes back after its fourth. The reference forms the whole projections, gates,
and contracts all 4096 hidden columns at once. Over the extended reals both are

    out[e, t, h] = (sum over i < 4096 of hid[e, t, i] * down[e, i, h]) + bias[e, h],

the kernel's sum cut into eight runs of 512 and associated tile by tile; the logistic the kernel applies is, at the
ideal instance, the quotient 1 / (1 + exp (-x)) the reference spells. Only commutativity and associativity of the sum
are used, so the precondition is never opened.

The frames: each kernel program's body is run once per case (first tile of an expert / later tile) on whole staging
buffers, the launch splits the fused weights and the fused bias, each read through two windows, by halves between them;
the reference's frame is its run with the result dropped.
-/

noncomputable section

namespace Cert.Proof

open Idealize.ShloMosaic Idealize.ShloMosaic.TcCoe Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.RefSpec.run_G m ρ)

/-- The ideal pass rewrote nothing: the idealized kernel is the kernel's own text read at the ideal instance. -/
theorem preserves : Cert.preserves_Kernel_KernelIdeal := trivial

/-- Both programs end with the specification of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), Cert.KernelIdeal.Frm.run_value m ρ, ?_⟩
  refine (θ_run Cert.ReferenceIdeal.defs _ _).mono (fun _ h c => ⟨(h c).1.trans ?_, (h c).2⟩) (Cert.RefSpec.run_G m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
